-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x256 .f32) (main_arg1 : IVec S2x1600000 32) (main_arg2 : FVec F S256x64 .f32) (main_arg3 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S4096x256 : Shape := ⟨2, ![4096, 256]⟩
abbrev S4096x1 : Shape := ⟨2, ![4096, 1]⟩
abbrev S4096x64 : Shape := ⟨2, ![4096, 64]⟩
abbrev S1700000x64 : Shape := ⟨2, ![1700000, 64]⟩
abbrev S1x64 : Shape := ⟨2, ![1, 64]⟩

abbrev nBuf : Space → Nat
  | .hbm => 42
  | .vmem => 14
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x64, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000x64, .f32⟩
  | .hbm, ⟨36, _⟩ => ⟨S_, .f32⟩
  | .hbm, ⟨37, _⟩ => ⟨S100000x64, .f32⟩
  | .hbm, ⟨38, _⟩ => ⟨S1700000x1, .i32⟩
  | .hbm, ⟨39, _⟩ => ⟨S100000x64, .f32⟩
  | .hbm, ⟨40, _⟩ => ⟨S1x64, .f32⟩
  | .hbm, ⟨41, _⟩ => ⟨S100000x64, .f32⟩
  | .local _ .vmem, ⟨0, _⟩ => ⟨S4096x256, .f32⟩
  | .local _ .vmem, ⟨1, _⟩ => ⟨S4096x256, .f32⟩
  | .local _ .vmem, ⟨2, _⟩ => ⟨S256x64, .f32⟩
  | .local _ .vmem, ⟨3, _⟩ => ⟨S4096x1, .f32⟩
  | .local _ .vmem, ⟨4, _⟩ => ⟨S4096x1, .f32⟩
  | .local _ .vmem, ⟨5, _⟩ => ⟨S4096x64, .f32⟩
  | .local _ .vmem, ⟨6, _⟩ => ⟨S4096x64, .f32⟩
  | .local _ .vmem, ⟨7, _⟩ => ⟨S4096x64, .f32⟩
  | .local _ .vmem, ⟨8, _⟩ => ⟨S4096x64, .f32⟩
  | .local _ .vmem, ⟨9, _⟩ => ⟨S4096x1, .f32⟩
  | .local _ .vmem, ⟨10, _⟩ => ⟨S4096x1, .f32⟩
  | .local _ .vmem, ⟨11, _⟩ => ⟨S1x64, .f32⟩
  | .local _ .vmem, ⟨12, _⟩ => ⟨S4096x64, .f32⟩
  | .local _ .vmem, ⟨13, _⟩ => ⟨S4096x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x64 : S4096x1.Broadcasts S4096x64
  inb_S4096x64_S4096x64_0_0 : ∀ a, (![0, 0] : Fin 2 → Nat) a + S4096x64.size a ≤ S4096x64.size a
  h_S4096x64 : 0 < S4096x64.numel
  bcast_S_S100000x64 : S_.BroadcastsInDim S100000x64 (![] : Fin 0 → Fin S100000x64.rank)
  shapeCasts_S64_S1x64 : S64.ShapeCasts S1x64
  shapeCasts_S4096x64_S4096x64 : S4096x64.ShapeCasts S4096x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  scatter_S100000_S1700000x1_S1700000_n_0_0_1_wf : ScatterDims.WF S100000 S1700000x1 S1700000 [] [0] [0] 1
  dot_S4096x256_S256x64_S4096x64_1_0_0_1_n_n_wf : DotDims.WF S4096x256 S256x64 S4096x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4096x256.size a < S100000x256.size a
  hwx0_0 : ∀ i : grid0.Coords, EltTy.bits .f32 = 32 ∨ (Rect.unit (s := S100000x256) (fun a => cc0_transform_0 i a * S4096x256.size a) (fun a => (Pipeline.Clip.of (cc0_transform_0 i a) (S4096x256.size a) (S100000x256.size a)).extent (S4096x256.size a)) fun a => Pipeline.Clip.inb (Pipeline.Clip.ok_of (hstart0_0 i a))).WholeWords (EltTy.packing .f32)
  hwxs0_0 : ∀ i : grid0.Coords, EltTy.bits .f32 = 32 ∨ (Rect.unit (s := S4096x256) (fun _ => 0) (fun a => (Pipeline.Clip.of (cc0_transform_0 i a) (S4096x256.size a) (S100000x256.size a)).extent (S4096x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S4096x1.size a < S100000x1.size a
  hwx0_2 : ∀ i : grid0.Coords, EltTy.bits .f32 = 32 ∨ (Rect.unit (s := S100000x1) (fun a => cc0_transform_2 i a * S4096x1.size a) (fun a => (Pipeline.Clip.of (cc0_transform_2 i a) (S4096x1.size a) (S100000x1.size a)).extent (S4096x1.size a)) fun a => Pipeline.Clip.inb (Pipeline.Clip.ok_of (hstart0_2 i a))).WholeWords (EltTy.packing .f32)
  hwxs0_2 : ∀ i : grid0.Coords, EltTy.bits .f32 = 32 ∨ (Rect.unit (s := S4096x1) (fun _ => 0) (fun a => (Pipeline.Clip.of (cc0_transform_2 i a) (S4096x1.size a) (S100000x1.size a)).extent (S4096x1.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S4096x64.size a < S100000x64.size a
  hwx0_3 : ∀ i : grid0.Coords, EltTy.bits .f32 = 32 ∨ (Rect.unit (s := S100000x64) (fun a => cc0_transform_3 i a * S4096x64.size a) (fun a => (Pipeline.Clip.of (cc0_transform_3 i a) (S4096x64.size a) (S100000x64.size a)).extent (S4096x64.size a)) fun a => Pipeline.Clip.inb (Pipeline.Clip.ok_of (hstart0_3 i a))).WholeWords (EltTy.packing .f32)
  hwxs0_3 : ∀ i : grid0.Coords, EltTy.bits .f32 = 32 ∨ (Rect.unit (s := S4096x64) (fun _ => 0) (fun a => (Pipeline.Clip.of (cc0_transform_3 i a) (S4096x64.size a) (S100000x64.size a)).extent (S4096x64.size a)) fun a => (Nat.zero_add _).trans_le (Pipeline.Clip.extent_le (Pipeline.Clip.ok_of (hstart0_3 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S4096x64.size a < S100000x64.size a
  hwx1_0 : ∀ i : grid1.Coords, EltTy.bits .f32 = 32 ∨ (Rect.unit (s := S100000x64) (fun a => cc1_transform_0 i a * S4096x64.size a) (fun a => (Pipeline.Clip.of (cc1_transform_0 i a) (S4096x64.size a) (S100000x64.size a)).extent (S4096x64.size a)) fun a => Pipeline.Clip.inb (Pipeline.Clip.ok_of (hstart1_0 i a))).WholeWords (EltTy.packing .f32)
  hwxs1_0 : ∀ i : grid1.Coords, EltTy.bits .f32 = 32 ∨ (Rect.unit (s := S4096x64) (fun _ => 0) (fun a => (Pipeline.Clip.of (cc1_transform_0 i a) (S4096x64.size a) (S100000x64.size a)).extent (S4096x64.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S4096x1.size a < S100000x1.size a
  hwx1_1 : ∀ i : grid1.Coords, EltTy.bits .f32 = 32 ∨ (Rect.unit (s := S100000x1) (fun a => cc1_transform_1 i a * S4096x1.size a) (fun a => (Pipeline.Clip.of (cc1_transform_1 i a) (S4096x1.size a) (S100000x1.size a)).extent (S4096x1.size a)) fun a => Pipeline.Clip.inb (Pipeline.Clip.ok_of (hstart1_1 i a))).WholeWords (EltTy.packing .f32)
  hwxs1_1 : ∀ i : grid1.Coords, EltTy.bits .f32 = 32 ∨ (Rect.unit (s := S4096x1) (fun _ => 0) (fun a => (Pipeline.Clip.of (cc1_transform_1 i a) (S4096x1.size a) (S100000x1.size a)).extent (S4096x1.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S4096x64.size a < S100000x64.size a
  hwx1_3 : ∀ i : grid1.Coords, EltTy.bits .f32 = 32 ∨ (Rect.unit (s := S100000x64) (fun a => cc1_transform_3 i a * S4096x64.size a) (fun a => (Pipeline.Clip.of (cc1_transform_3 i a) (S4096x64.size a) (S100000x64.size a)).extent (S4096x64.size a)) fun a => Pipeline.Clip.inb (Pipeline.Clip.ok_of (hstart1_3 i a))).WholeWords (EltTy.packing .f32)
  hwxs1_3 : ∀ i : grid1.Coords, EltTy.bits .f32 = 32 ∨ (Rect.unit (s := S4096x64) (fun _ => 0) (fun a => (Pipeline.Clip.of (cc1_transform_3 i a) (S4096x64.size a) (S100000x64.size a)).extent (S4096x64.size a)) fun a => (Nat.zero_add _).trans_le (Pipeline.Clip.extent_le (Pipeline.Clip.ok_of (hstart1_3 i a)))).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpecClip (Memref.whole main_arg0) S4096x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v15) S4096x1.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v16) S4096x64.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpecClip (Memref.whole main_v26) S4096x64.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v15) S4096x1.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpecClip (Memref.whole main_v28) S4096x64.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 64
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x64, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x1, .f32⟩
  | .hbm, ⟨55, _⟩ => ⟨S1700000x64, .f32⟩
  | .hbm, ⟨56, _⟩ => ⟨S1700000x64, .f32⟩
  | .hbm, ⟨57, _⟩ => ⟨S_, .f32⟩
  | .hbm, ⟨58, _⟩ => ⟨S100000x64, .f32⟩
  | .hbm, ⟨59, _⟩ => ⟨S1700000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x64_S100000x64_1_0_0_1_n_n_wf : DotDims.WF S100000x256 S256x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.BodyBits.lean ====
/-
  The two kernel bodies of the program, as Hoare triples over whole staging memrefs, at any float family and any
  user resource algebra.

  * The first body loads a 4096×256 block x, the 256×64 weight W and a 4096×1 column dinv, forms the matrix
    product x·W (both operands rounded to bf16, accumulated from zero in f32), broadcasts dinv along the 64
    columns and multiplies elementwise: the output block is (x·W)·dinv, row r scaled by dinv r.  It also loads the
    output block before storing it (a dead load: the loaded value is used nowhere).
  * The second body loads a 4096×64 block agg, the 4096×1 column dinv and the 1×64 bias row, broadcasts dinv along
    the columns and the bias along the rows: the output block is agg·dinv + bias.  The same dead load of the output.

  Each body's ONE store is at offsets (0, 0) with the buffer's own sizes, so it covers the buffer and what the
  buffer holds afterwards is the stored payload itself; each load is through the same whole rectangle and reads the
  buffer's contents.  Hence: the inputs are left as they were and the output holds the payload of the inputs.
-/
import proofs.«161486_j65274912964781_1_alg».proof.Proof.Gen.Kernel.Skeleton
import proofs.«161486_j65274912964781_1_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

/-- The offsets (0, 0), as the constant-zero function. -/
private theorem hz : (![0, 0] : Fin 2 → Nat) = fun _ => 0 := funext fun a => by fin_cases a <;> rfl

/-- One store through the whole-shape rectangle at zero offsets leaves its payload in the buffer, whatever the
    view and whatever was there before: the rectangle holds every index, and under it the contents are the payload. -/
private theorem read_store_unit_zero {sg : RefSig} {κ : Kind} {sp : Space} {S : Shape} {e : EltTy} {Val : EltTy → Type}
    [∀ e, Nonempty (Val e)] (v : View sg κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w :=
  (View.read_writes_eq_canon v f _ (fun y =>
    ⟨_, List.mem_singleton_self _, View.mem_set_unit_zero h inb y⟩)).trans (View.canon_unit_zero h inb w)

set_option maxHeartbeats 1000000 in
/-- The first body: the inputs stay, the output holds (x·W)·dinv of them. -/
theorem sound_kernel0 (c : Dev nD) (E : Set ℕ) (i : grid0.Coords)
    (a0 : Memref sig .tc .vmem S4096x256 .f32) (h0 : a0.IsWhole) (a1 : Memref sig .tc .vmem S256x64 .f32) (h1 : a1.IsWhole)
    (a2 : Memref sig .tc .vmem S4096x1 .f32) (h2 : a2.IsWhole) (a3 : Memref sig .tc .vmem S4096x64 .f32) (h3 : a3.IsWhole)
    (x0 : Vec F S4096x256 .f32) (x1 : Vec F S256x64 .f32) (x2 : Vec F S4096x1 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
              ∗ owns (c : Thread nD τ) a3 fullShare (k0_pay1 x0 x1 x2)) -∗ K ⟨⟩))
      ⊢ wp frame (wpE (defs₀ (F := F)) Variants.none c none) E (cc0__matmul_scale_kernel i a0 h0 a1 h1 a2 h2 a3 h3) K := by
  simp only [cc0__matmul_scale_kernel_eq_skeleton]; unfold cc0__matmul_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_store_unit_zero (S := S4096x64) _ _ hz _ _).trans ?_
  simp only [View.readAt_eq_ld]
  rw [View.ld_unit_zero (S := S4096x256) hz, View.ld_unit_zero (S := S256x64) hz, View.ld_unit_zero (S := S4096x1) hz]

set_option maxHeartbeats 1000000 in
/-- The second body: the inputs stay, the output holds agg·dinv + bias of them. -/
theorem sound_kernel1 (c : Dev nD) (E : Set ℕ) (i : grid1.Coords)
    (a0 : Memref sig .tc .vmem S4096x64 .f32) (h0 : a0.IsWhole) (a1 : Memref sig .tc .vmem S4096x1 .f32) (h1 : a1.IsWhole)
    (a2 : Memref sig .tc .vmem S1x64 .f32) (h2 : a2.IsWhole) (a3 : Memref sig .tc .vmem S4096x64 .f32) (h3 : a3.IsWhole)
    (x0 : Vec F S4096x64 .f32) (x1 : Vec F S4096x1 .f32) (x2 : Vec F S1x64 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
              ∗ owns (c : Thread nD τ) a3 fullShare (k1_pay1 x0 x1 x2)) -∗ K ⟨⟩))
      ⊢ wp frame (wpE (defs₀ (F := F)) Variants.none c none) E (cc1__finalize_kernel i a0 h0 a1 h1 a2 h2 a3 h3) K := by
  simp only [cc1__finalize_kernel_eq_skeleton]; unfold cc1__finalize_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_store_unit_zero (S := S4096x64) _ _ hz _ _).trans ?_
  simp only [View.readAt_eq_ld]
  rw [View.ld_unit_zero (S := S4096x64) hz, View.ld_unit_zero (S := S4096x1) hz, View.ld_unit_zero (S := S1x64) hz]

end Cert.Kernel.Hand

end
-- ==== Proof.BitsFrame.lean ====
/-
  The word-level kernel program runs, faults nowhere and leaves its arguments unchanged.

  @main is three stretches of host operations, the first pipelined region (row blocks of x·W scaled by the row's
  scale), a stretch of host operations that gathers and scatter-adds its result, and the second pipelined region.
  The grid's last row block is cut at the arrays' end, and the first region's matrix product at the word level is
  a function of its whole staging buffer, the words past the array's end included: what the first region leaves in
  its result array is therefore not a function of the launch memory. A frame needs none of it. Each region's proof
  data say nothing of what its body leaves in any staging buffer; the first region is left with its arrays at SOME
  contents, and the stretch and the region after it are entered from whatever those are: their proof data are
  chosen only then. The second region's share of the rounds ghost state comes from a second copy of the launch
  element, carried through the run beside the buffers.
-/
import proofs.«161486_j65274912964781_1_alg».proof.Proof.BodyBits
import proofs.«161486_j65274912964781_1_alg».proof.Proof.Gen.Kernel.Launch
import proofs.«161486_j65274912964781_1_alg».proof.Proof.Gen.Kernel.Points
import proofs.«161486_j65274912964781_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ × UR sig nD τ) ℕ

/-- The TensorCore's buffer contents at a segment boundary, read at its references. -/
abbrev ValsB : Type := (c : Dev nD) → (b : Ref sig .tc) → Buf (Elt F) ((c : Thread nD τ).loc b)

/-! ## Proof data that say nothing of the staging buffers -/

section Regions
variable (V : ValsB (F := F))

/-- Region 0 on core `c`, entered at contents `V`: the arrays as found; nothing named of what the body leaves. -/
def datB0 (c : Dev nD) : Dat τ (Elt F) Unit ℕ (UR sig nD τ × UR sig nD τ) ℕ cfg0 c where
  A w := V c (Pipeline.arrRef spec0 w)
  after w t := Pipeline.Dat.unnamed w t
  Φ _ := Pipeline.ΦA spec0 c
  q _ := fullShare
  owed _ := 0

/-- Region 1 likewise. -/
def datB1 (c : Dev nD) : Dat τ (Elt F) Unit ℕ (UR sig nD τ × UR sig nD τ) ℕ cfg1 c where
  A w := V c (Pipeline.arrRef spec1 w)
  after w t := Pipeline.Dat.unnamed w t
  Φ _ := Pipeline.ΦA spec1 c
  q _ := fullShare
  owed _ := 0

/-- The first body at any point, on staging buffers at any contents: it runs and hands them back at some contents. -/
theorem sound_bodyB0 (c : Dev nD) (t : Fin cfg0.N) :
    iprop((datB0 V c).Φ t.castSucc ∗ (datB0 V c).owesAt () t.castSucc
        ∗ (∃ X, owns (c : Thread nD τ) (st0_0 t) fullShare X) ∗ (∃ X, owns (c : Thread nD τ) (st0_1 t) fullShare X)
        ∗ (∃ X, owns (c : Thread nD τ) (st0_2 t) fullShare X) ∗ (∃ X, owns (c : Thread nD τ) (st0_3 t) fullShare X))
      ⊢ wp frame (wpE (defs₀ (F := F)) Variants.none c none) Set.univ (bodyAt0 t) (fun _ =>
          iprop((datB0 V c).Φ t.succ ∗ (datB0 V c).owesAt () t.succ
            ∗ (∃ X, owns (c : Thread nD τ) (st0_0 t) fullShare X) ∗ (∃ X, owns (c : Thread nD τ) (st0_1 t) fullShare X)
            ∗ (∃ X, owns (c : Thread nD τ) (st0_2 t) fullShare X) ∗ (∃ X, owns (c : Thread nD τ) (st0_3 t) fullShare X))) := by
  rw [show (datB0 V c).Φ t.succ = (datB0 V c).Φ t.castSucc from rfl,
    show (datB0 V c).owesAt () t.succ = (datB0 V c).owesAt () t.castSucc from rfl]
  iintro ⟨HΦ, Ho, ⟨%X0, H0⟩, ⟨%X1, H1⟩, ⟨%X2, H2⟩, H3⟩
  unfold bodyAt0
  iapply (sound_kernel0 c Set.univ _ _ _ _ _ _ _ _ _ X0 X1 X2 _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexists _; iexact H0
  isplitl [H1]; · iexists _; iexact H1
  isplitl [H2]; · iexists _; iexact H2
  iexists _; iexact H3

/-- The second body likewise. -/
theorem sound_bodyB1 (c : Dev nD) (t : Fin cfg1.N) :
    iprop((datB1 V c).Φ t.castSucc ∗ (datB1 V c).owesAt () t.castSucc
        ∗ (∃ X, owns (c : Thread nD τ) (st1_0 t) fullShare X) ∗ (∃ X, owns (c : Thread nD τ) (st1_1 t) fullShare X)
        ∗ (∃ X, owns (c : Thread nD τ) (st1_2 t) fullShare X) ∗ (∃ X, owns (c : Thread nD τ) (st1_3 t) fullShare X))
      ⊢ wp frame (wpE (defs₀ (F := F)) Variants.none c none) Set.univ (bodyAt1 t) (fun _ =>
          iprop((datB1 V c).Φ t.succ ∗ (datB1 V c).owesAt () t.succ
            ∗ (∃ X, owns (c : Thread nD τ) (st1_0 t) fullShare X) ∗ (∃ X, owns (c : Thread nD τ) (st1_1 t) fullShare X)
            ∗ (∃ X, owns (c : Thread nD τ) (st1_2 t) fullShare X) ∗ (∃ X, owns (c : Thread nD τ) (st1_3 t) fullShare X))) := by
  rw [show (datB1 V c).Φ t.succ = (datB1 V c).Φ t.castSucc from rfl,
    show (datB1 V c).owesAt () t.succ = (datB1 V c).owesAt () t.castSucc from rfl]
  iintro ⟨HΦ, Ho, ⟨%X0, H0⟩, ⟨%X1, H1⟩, ⟨%X2, H2⟩, H3⟩
  unfold bodyAt1
  iapply (sound_kernel1 c Set.univ _ _ _ _ _ _ _ _ _ X0 X1 X2 _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexists _; iexact H0
  isplitl [H1]; · iexists _; iexact H1
  isplitl [H2]; · iexists _; iexact H2
  iexists _; iexact H3

/-- The exact obligation with every window forgotten: each buffer handed over and taken back at arbitrary contents. -/
theorem body_obligationB0 (c : Dev nD) :
    BodyObligation (datB0 V c) (defs₀ (F := F)) Variants.none () Set.univ (fun _ => true) := fun t => by
  rw [bigSep_W0]
  exact sound_bodyB0 V c t
theorem body_obligationB1 (c : Dev nD) :
    BodyObligation (datB1 V c) (defs₀ (F := F)) Variants.none () Set.univ (fun _ => true) := fun t => by
  rw [bigSep_W1]
  exact sound_bodyB1 V c t

end Regions

/-! ## The proof-data families, each region's at the contents it is entered from -/

/-- Exact proof data that name nothing, region 0's at `Va` and region 1's at `Vb` (a literal match on the pipeline). -/
def pdatsB (Va Vb : ValsB (F := F)) : (p : Fin 2) → (c : Dev nD) →
    Dat τ (Elt F) Unit ℕ (UR sig nD τ × UR sig nD τ) ℕ (Pipeline.pin (pcfgs (F := F)) adm p) c
  | ⟨0, _⟩ => fun c => datB0 Va c
  | ⟨1, _⟩ => fun c => datB1 Vb c

/-- The same read relationally with every window forgotten: what each region's step is taken at. -/
def rdatsB (Va Vb : ValsB (F := F)) : (p : Fin 2) → (c : Dev nD) →
    RDat τ (Elt F) Unit ℕ (UR sig nD τ × UR sig nD τ) ℕ (Pipeline.pin (pcfgs (F := F)) adm p) c
  | ⟨0, _⟩ => fun c => (datB0 Va c).toRForget (fun _ => true)
  | ⟨1, _⟩ => fun c => (datB1 Vb c).toRForget (fun _ => true)

abbrev 𝒱₀ : Variants := Variants.none
/-- No core owes another anything: no level is assigned. -/
abbrev L : GSem nD τ sig → Finset Unit := fun _ => ∅
abbrev lv : GSem nD τ sig → Unit → ℕ := fun _ _ => 0

/-- The second region's share of the rounds ghost state, from the second copy of the launch element. -/
abbrev ghost2 (c : Dev nD) : sProp 𝕄 :=
  iprop(Pipeline.cellsGhost (Pipeline.pin (pcfgs (F := F)) adm) (embR : Emb (UR sig nD τ) 𝕄) (1 : Fin 2) c
    ∗ Pipeline.toksInit (Pipeline.pin (pcfgs (F := F)) adm) (embR : Emb (UR sig nD τ) 𝕄) (1 : Fin 2) c)
/-- What rides beside the buffers through every segment: the generator register at some state, nothing owed, -/
abbrev Rr (c : Dev nD) : sProp 𝕄 :=
  iprop((∃ r, prngReg c r) ∗ ∃ W, owes (c : Thread nD τ) (0 : CellTallies nD τ sig Unit) W)
/-- and, until the second region takes it, that ghost state. -/
abbrev Rg (c : Dev nD) : sProp 𝕄 := iprop(Rr (F := F) c ∗ ghost2 (F := F) c)

variable (m : (ℓ : Loc nD τ sig) → Buf (Elt F) ℓ)

/-- Region 0's entry contents: the launch memory after the three host stretches before it. -/
abbrev E0B : ValsB (F := F) := fun c b => Gen.V3 m c b

/-- Contents for region 0's four arrays on every core. -/
abbrev Arrs0 : Type := (c : Dev nD) → (w : Fin 4) → Buf (Elt F) ((spec0 w).arr.view.loc (c : Thread nD τ))

/-- Such contents keep the region's two argument arrays (x and W) as the region found them. -/
def keeps (𝒜 : Arrs0 (F := F)) (c : Dev nD) : Prop :=
  𝒜 c 0 = E0B m c (Pipeline.arrRef spec0 0) ∧ 𝒜 c 1 = E0B m c (Pipeline.arrRef spec0 1)

/-- The buffers after region 0, its arrays at `𝒜 c`, every other buffer as entered. -/
def WB4 (𝒜 : Arrs0 (F := F)) (c : Dev nD) : Valuation τ sig (Elt F) :=
  Pipeline.withArrays spec0 c (Gen.V3 m c) (𝒜 c)
/-- After the host stretch between the regions. -/
abbrev WB5 (𝒜 : Arrs0 (F := F)) (c : Dev nD) : Valuation τ sig (Elt F) := StableHlo.after hostOps1 (WB4 m 𝒜 c)
abbrev E1B (𝒜 : Arrs0 (F := F)) : ValsB (F := F) := fun c b => WB5 m 𝒜 c b

/-- The thread state between region 0 and the stretch after it: the buffers with region 0's arrays at SOME contents
    that keep its argument arrays. -/
abbrev Tmid (c : Dev nD) : sProp 𝕄 :=
  iprop(∃ 𝒜 : Arrs0 (F := F), ⌜keeps m 𝒜 c⌝ ∗ StableHlo.held (c : Thread nD τ) (Pipeline.ucRefs τ sig) (WB4 m 𝒜 c) ∗ Rg (F := F) c)

/-! ## Region 0 as a segment -/

set_option backward.isDefEq.respectTransparency.types false in
/-- Region 0, entered from every unscoped buffer at the contents after the first three stretches, left with its
    arrays at some contents (`Tmid`). -/
def regB0 (Vb : ValsB (F := F)) : Pipeline.RDat.RegionSeg (pcfgs (F := F)) adm (rdatsB (E0B m) Vb) () defs₀ 𝒱₀ L lv 0 where
  win := launch0.win.to₀
  block_pos := launch0.block_pos
  stage_whole := launch0.stage_whole
  K := PEmpty
  osem k := k.elim
  ho := Pipeline.OwnSemFacts.none _
  hbody c := (body_obligationB0 (E0B m) c).toRForget
  hwaits := Pipeline.RDat.hwaits_of_owed_zero _ _ _ _ L lv 0 fun _ _ => rfl
  pre c := iprop(StableHlo.held (c : Thread nD τ) (Pipeline.ucRefs τ sig) (Gen.V3 m c) ∗ Rg (F := F) c)
  post c := Tmid m c
  X c := iprop(∃ r, prngReg c r)
  Y c := iprop(∃ r, prngReg c r)
  Z c := iprop(Pipeline.unscopedRest (Ix := Unit) (Name := ℕ) (U := UR sig nD τ × UR sig nD τ) (Lvl := ℕ) spec0 c (E0B m c) ∗ ghost2 (F := F) c)
  hentry c := by
    rw [Pipeline.ownSems0_none]
    have hsplit := Pipeline.RDat.arrays_of_unscopedBufs (p := 0) (pcfgs (F := F)) adm (rdatsB (E0B m) Vb) launch0.win launch0.arr_whole c
      ((pdatsB (E0B m) Vb 0 c).share_full fun _ => rfl) (E0B m c) fun _ => rfl
    rw [Pipeline.unscopedBufs_held] at hsplit
    iintro ⟨⟨Hub, HRg⟩, -, -⟩
    icases HRg with ⟨⟨Hp, HO⟩, Hg2⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    isplitl [Hrest]; · iexact Hrest
    iexact Hg2
  hin c := by
    rw [show (rdatsB (E0B m) Vb 0 c).Φ 0 = Pipeline.ΦA spec0 c from rfl]; unfold Pipeline.ΦA
    iintro ⟨Hp, -, Hr⟩
    isplitl [Hr]; · iexact Hr
    iexact Hp
  hout c := by
    rw [Pipeline.ownSems0_none, show (rdatsB (E0B m) Vb 0 c).Φ (Fin.last _) = Pipeline.ΦA spec0 c from rfl]; unfold Pipeline.ΦA
    iintro ⟨Hr, Hp⟩
    isplitl [Hp]; · iexact Hp
    isplitr; · iempintro
    iexact Hr
  hexit c := by
    classical
    unfold Pipeline.RDat.arraysAt
    iintro ⟨Ha, HO, HY, Hrest, Hg2⟩
    ihave Ha' := (BI.bigSep_exists_pi Finset.univ _) $$ Ha
    icases Ha' with ⟨%A, Ha⟩
    ihave Ha2 := (BI.bigSep_pure_sep Finset.univ _ _) $$ Ha
    icases Ha2 with ⟨%hA, Ha⟩
    have hjoin := Pipeline.unscopedBufs_of_arrays (p := 0) (pcfgs (F := F)) adm (Ix := Unit) (Name := ℕ) (U := UR sig nD τ × UR sig nD τ) (Lvl := ℕ)
      launch0.win launch0.arr_whole c (pdatsB (E0B m) Vb) ((pdatsB (E0B m) Vb 0 c).share_full fun _ => rfl)
      (E0B m c) (fun b => Pipeline.withArrays spec0 c (Gen.V3 m c) A (Proc.devRef .tc b)) A
      (fun w => (Pipeline.withArrays_arr spec0 launch0.win.arr_inj c _ _ w).symm)
      (fun b hb => Pipeline.withArrays_of_ne spec0 c _ _ b fun w e => hb (Finset.mem_image.mpr ⟨w, Finset.mem_univ _, e⟩))
    rw [Pipeline.unscopedBufs_held] at hjoin
    have h0 : A 0 = E0B m c (Pipeline.arrRef spec0 0) := by
      have := hA 0 (Finset.mem_univ _)
      rw [(rdatsB (E0B m) Vb 0 c).ArrAt_in 0 rfl] at this
      exact this
    have h1 : A 1 = E0B m c (Pipeline.arrRef spec0 1) := by
      have := hA 1 (Finset.mem_univ _)
      rw [(rdatsB (E0B m) Vb 0 c).ArrAt_in 1 rfl] at this
      exact this
    imodintro
    iexists (Function.update (fun _ _ => Classical.arbitrary _) c A : Arrs0 (F := F))
    have h𝒜 : (Function.update (fun _ _ => Classical.arbitrary _) c A : Arrs0 (F := F)) c = A := Function.update_self ..
    unfold keeps WB4
    rw [h𝒜]
    isplitr; · ipureintro; exact ⟨h0, h1⟩
    isplitl [Ha Hrest]
    · iapply hjoin
      isplitl [Ha]
      · unfold Pipeline.Dat.arrays; iexact Ha
      iexact Hrest
    isplitl [HY HO]
    · isplitl [HY]; · iexact HY
      unfold Pipeline.RDat.owesAt Pipeline.owesWithin
      icases HO with ⟨%W, -, HO⟩; iexists W; iexact HO
    iexact Hg2

/-! ## The arguments through the fold -/

/-- The stretch between the regions writes no argument, and region 0 keeps its argument arrays: after that stretch every
    argument's buffer holds its launch contents. -/
theorem WB5_args (𝒜 : Arrs0 (F := F)) (c : Dev nD) (h : keeps m 𝒜 c) :
    WB5 m 𝒜 c (Proc.devRef .tc main_arg0) = m ((c : Thread nD τ).loc main_arg0)
    ∧ WB5 m 𝒜 c (Proc.devRef .tc main_arg1) = m ((c : Thread nD τ).loc main_arg1)
    ∧ WB5 m 𝒜 c (Proc.devRef .tc main_arg2) = m ((c : Thread nD τ).loc main_arg2)
    ∧ WB5 m 𝒜 c (Proc.devRef .tc main_arg3) = m ((c : Thread nD τ).loc main_arg3) := by
  have e0 : WB4 m 𝒜 c (Proc.devRef .tc main_arg0) = m ((c : Thread nD τ).loc main_arg0) :=
    (Pipeline.withArrays_arr spec0 launch0.win.arr_inj c (Gen.V3 m c) (𝒜 c) 0).trans <| h.1.trans <|
      (V3_of m c main_arg0 (by decide)).trans <| (V2_of m c main_arg0 (by decide)).trans <| (V1_of m c main_arg0 (by decide)).trans rfl
  have e2 : WB4 m 𝒜 c (Proc.devRef .tc main_arg2) = m ((c : Thread nD τ).loc main_arg2) :=
    (Pipeline.withArrays_arr spec0 launch0.win.arr_inj c (Gen.V3 m c) (𝒜 c) 1).trans <| h.2.trans <|
      (V3_of m c main_arg2 (by decide)).trans <| (V2_of m c main_arg2 (by decide)).trans <| (V1_of m c main_arg2 (by decide)).trans rfl
  have e1 : WB4 m 𝒜 c (Proc.devRef .tc main_arg1) = m ((c : Thread nD τ).loc main_arg1) :=
    (Pipeline.withArrays_of_ne spec0 c (Gen.V3 m c) (𝒜 c) main_arg1 (by decide)).trans <|
      (V3_of m c main_arg1 (by decide)).trans <| (V2_of m c main_arg1 (by decide)).trans <| (V1_of m c main_arg1 (by decide)).trans rfl
  have e3 : WB4 m 𝒜 c (Proc.devRef .tc main_arg3) = m ((c : Thread nD τ).loc main_arg3) :=
    (Pipeline.withArrays_of_ne spec0 c (Gen.V3 m c) (𝒜 c) main_arg3 (by decide)).trans <|
      (V3_of m c main_arg3 (by decide)).trans <| (V2_of m c main_arg3 (by decide)).trans <| (V1_of m c main_arg3 (by decide)).trans rfl
  exact ⟨(StableHlo.after_of_writes_sub hostOps1 _ hostOps1_writes (r := main_arg0) (by decide)).trans e0,
    (StableHlo.after_of_writes_sub hostOps1 _ hostOps1_writes (r := main_arg1) (by decide)).trans e1,
    (StableHlo.after_of_writes_sub hostOps1 _ hostOps1_writes (r := main_arg2) (by decide)).trans e2,
    (StableHlo.after_of_writes_sub hostOps1 _ hostOps1_writes (r := main_arg3) (by decide)).trans e3⟩

/-- The last thread state: every unscoped buffer at SOME contents that hold the four arguments as launched; the generator
    register at some state. -/
abbrev TnB (c : Dev nD) : sProp 𝕄 :=
  iprop(∃ Vf : Valuation τ sig (Elt F),
    ⌜Vf (Proc.devRef .tc main_arg0) = m ((c : Thread nD τ).loc main_arg0) ∧ Vf (Proc.devRef .tc main_arg1) = m ((c : Thread nD τ).loc main_arg1)
      ∧ Vf (Proc.devRef .tc main_arg2) = m ((c : Thread nD τ).loc main_arg2) ∧ Vf (Proc.devRef .tc main_arg3) = m ((c : Thread nD τ).loc main_arg3)⌝
    ∗ StableHlo.held (c : Thread nD τ) (Pipeline.ucRefs τ sig) Vf ∗ ∃ r, prngReg c r)

/-! ## Region 1 as a segment, at the contents region 0 happened to leave -/

set_option backward.isDefEq.respectTransparency.types false in
/-- Region 1, its proof data chosen at the contents `𝒜` region 0 left: entered from the buffers after the stretch
    between the regions, left with its arrays at some contents — none of them an argument. -/
def regB1 (𝒜 : Arrs0 (F := F)) : Pipeline.RDat.RegionSeg (pcfgs (F := F)) adm (rdatsB (E0B m) (E1B m 𝒜)) () defs₀ 𝒱₀ L lv 1 where
  win := launch1.win.to₀
  block_pos := launch1.block_pos
  stage_whole := launch1.stage_whole
  K := PEmpty
  osem k := k.elim
  ho := Pipeline.OwnSemFacts.none _
  hbody c := (body_obligationB1 (E1B m 𝒜) c).toRForget
  hwaits := Pipeline.RDat.hwaits_of_owed_zero _ _ _ _ L lv 1 fun _ _ => rfl
  pre c := iprop(⌜keeps m 𝒜 c⌝ ∗ StableHlo.held (c : Thread nD τ) (Pipeline.ucRefs τ sig) (WB5 m 𝒜 c) ∗ Rr (F := F) c)
  post c := iprop(TnB m c ∗ ∃ W, owes (c : Thread nD τ) (0 : CellTallies nD τ sig Unit) W)
  X c := iprop(∃ r, prngReg c r)
  Y c := iprop(∃ r, prngReg c r)
  Z c := iprop(⌜keeps m 𝒜 c⌝ ∗ Pipeline.unscopedRest (Ix := Unit) (Name := ℕ) (U := UR sig nD τ × UR sig nD τ) (Lvl := ℕ) spec1 c (E1B m 𝒜 c))
  hentry c := by
    rw [Pipeline.ownSems0_none]
    have hsplit := Pipeline.RDat.arrays_of_unscopedBufs (p := 1) (pcfgs (F := F)) adm (rdatsB (E0B m) (E1B m 𝒜)) launch1.win launch1.arr_whole c
      ((pdatsB (E0B m) (E1B m 𝒜) 1 c).share_full fun _ => rfl) (E1B m 𝒜 c) fun _ => rfl
    rw [Pipeline.unscopedBufs_held] at hsplit
    iintro ⟨⟨%hk, Hub, HR⟩, -, -⟩
    icases HR with ⟨Hp, HO⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    isplitr; · ipureintro; exact hk
    iexact Hrest
  hin c := by
    rw [show (rdatsB (E0B m) (E1B m 𝒜) 1 c).Φ 0 = Pipeline.ΦA spec1 c from rfl]; unfold Pipeline.ΦA
    iintro ⟨Hp, -, Hr⟩
    isplitl [Hr]; · iexact Hr
    iexact Hp
  hout c := by
    rw [Pipeline.ownSems0_none, show (rdatsB (E0B m) (E1B m 𝒜) 1 c).Φ (Fin.last _) = Pipeline.ΦA spec1 c from rfl]; unfold Pipeline.ΦA
    iintro ⟨Hr, Hp⟩
    isplitl [Hp]; · iexact Hp
    isplitr; · iempintro
    iexact Hr
  hexit c := by
    classical
    unfold Pipeline.RDat.arraysAt
    iintro ⟨Ha, HO, HY, %hk, Hrest⟩
    ihave Ha' := (BI.bigSep_exists_pi Finset.univ _) $$ Ha
    icases Ha' with ⟨%B, Ha⟩
    ihave Ha2 := (BI.bigSep_pure_sep Finset.univ _ _) $$ Ha
    icases Ha2 with ⟨-, Ha⟩
    have hjoin := Pipeline.unscopedBufs_of_arrays (p := 1) (pcfgs (F := F)) adm (Ix := Unit) (Name := ℕ) (U := UR sig nD τ × UR sig nD τ) (Lvl := ℕ)
      launch1.win launch1.arr_whole c (pdatsB (E0B m) (E1B m 𝒜)) ((pdatsB (E0B m) (E1B m 𝒜) 1 c).share_full fun _ => rfl)
      (E1B m 𝒜 c) (fun b => Pipeline.withArrays spec1 c (WB5 m 𝒜 c) B (Proc.devRef .tc b)) B
      (fun w => (Pipeline.withArrays_arr spec1 launch1.win.arr_inj c _ _ w).symm)
      (fun b hb => Pipeline.withArrays_of_ne spec1 c _ _ b fun w e => hb (Finset.mem_image.mpr ⟨w, Finset.mem_univ _, e⟩))
    rw [Pipeline.unscopedBufs_held] at hjoin
    obtain ⟨e0, e1, e2, e3⟩ := WB5_args m 𝒜 c hk
    imodintro
    isplitr [HO]
    · iexists (Pipeline.withArrays spec1 c (WB5 m 𝒜 c) B)
      isplitr
      · ipureintro
        exact ⟨(Pipeline.withArrays_of_ne spec1 c _ B main_arg0 (by decide)).trans e0,
          (Pipeline.withArrays_of_ne spec1 c _ B main_arg1 (by decide)).trans e1,
          (Pipeline.withArrays_of_ne spec1 c _ B main_arg2 (by decide)).trans e2,
          (Pipeline.withArrays_of_ne spec1 c _ B main_arg3 (by decide)).trans e3⟩
      isplitl [Ha Hrest]
      · iapply hjoin
        isplitl [Ha]
        · unfold Pipeline.Dat.arrays; iexact Ha
        iexact Hrest
      iexact HY
    · unfold Pipeline.RDat.owesAt Pipeline.owesWithin
      icases HO with ⟨%W, -, HO⟩; iexists W; iexact HO

/-! ## The stretch between the regions and region 1 as ONE segment, entered from region 0's exit -/

set_option backward.isDefEq.respectTransparency.types false in
/-- From `Tmid` — region 0's arrays at some contents — the host stretch runs over whatever those contents are, and region 1
    is entered with proof data chosen at them, on the second copy's ghost state: together they run to the last thread
    state under any continuation. -/
def tailSeg : Pipeline.HostSeg (Name := ℕ) (U := UR sig nD τ × UR sig nD τ) (pcfgs (F := F)) defs₀ 𝒱₀ L lv where
  prog := StableHlo.seq hostOps1 >>= fun _ => Prog.lift (.customCall (Pipeline.entry 1) ())
  pre c := Tmid m c
  post c := iprop(TnB m c ∗ ∃ W, owes (c : Thread nD τ) (0 : CellTallies nD τ sig Unit) W)
  run c {β} k K := by
    iintro ⟨Hk, Hbd, ⟨%𝒜, %hk, Hh, HR, Hg2⟩, #Hla⟩
    rw [bind_assoc]
    have hseg := (Pipeline.HostSeg.ofOps (pcfgs (F := F)) defs₀ 𝒱₀ L lv (Pipeline.ucRefs τ sig) hostOps1
      (fun op h => Pipeline.sub_ucRefs op ((List.forall_iff_forall_mem.mp hostOps1_sub) op h))
      (fun op h => (List.forall_iff_forall_mem.mp hostOps1_fresh) op h) (WB4 m 𝒜)
      (fun c => iprop(Rr (F := F) c ∗ ghost2 (F := F) c))).run c (fun _ => Prog.lift (.customCall (Pipeline.entry 1) ()) >>= k) K
    simp only [Pipeline.HostSeg.ofOps] at hseg
    iapply hseg
    isplitr [Hbd Hh HR Hg2]
    · iintro ⟨Hbd, Hh, HR, Hg2⟩
      have hwp := Pipeline.RDat.RegionSeg.wp (pcfgs (F := F)) adm (rdatsB (E0B m) (E1B m 𝒜)) () cellOf_inj
        (embR : Emb (UR sig nD τ) 𝕄) defs₀ 𝒱₀ L lv (regB1 m 𝒜) c none (fun u h => nomatch h) k K
      simp only [regB1] at hwp
      iapply hwp
      isplitl [Hk]; · iexact Hk
      isplitl [Hbd]; · iexact Hbd
      isplitl [Hh HR]
      · isplitr; · ipureintro; exact hk
        isplitl [Hh]; · iexact Hh
        iexact HR
      isplitr; · iexact Hla
      iexact Hg2
    · isplitl [Hbd]; · iexact Hbd
      isplitl [Hh HR Hg2]
      · isplitl [Hh]; · iexact Hh
        isplitl [HR]; · iexact HR
        iexact Hg2
      iexact Hla

/-! ## @main as segments, and the launch -/

/-- @main's items: three host stretches, region 0, then the stretch and region 1 as one segment. -/
abbrev segsB : List (Pipeline.RDat.Seg (pcfgs (F := F)) adm (rdatsB (E0B m) (E0B m)) () defs₀ 𝒱₀ L lv) :=
  [ .host (Pipeline.HostSeg.ofOps _ _ _ _ _ (Pipeline.ucRefs τ sig) hostOps0
      (fun op h => Pipeline.sub_ucRefs op ((List.forall_iff_forall_mem.mp hostOps0_sub) op h))
      (fun op h => (List.forall_iff_forall_mem.mp hostOps0_fresh) op h) (Gen.V0 m) (Rg (F := F))),
    .host (Pipeline.HostSeg.ofOps _ _ _ _ _ (Pipeline.ucRefs τ sig) hostOps0_1
      (fun op h => Pipeline.sub_ucRefs op ((List.forall_iff_forall_mem.mp hostOps0_1_sub) op h))
      (fun op h => (List.forall_iff_forall_mem.mp hostOps0_1_fresh) op h) (Gen.V1 m) (Rg (F := F))),
    .host (Pipeline.HostSeg.ofOps _ _ _ _ _ (Pipeline.ucRefs τ sig) hostOps0_2
      (fun op h => Pipeline.sub_ucRefs op ((List.forall_iff_forall_mem.mp hostOps0_2_sub) op h))
      (fun op h => (List.forall_iff_forall_mem.mp hostOps0_2_fresh) op h) (Gen.V2 m) (Rg (F := F))),
    .region (regB0 m (E0B m)),
    .host (tailSeg m) ]

/-- @main is the run of those segments. -/
theorem main_runB (c : Dev nD) : main (F := F) c = Pipeline.RDat.Seg.run (segsB m) := (main_chain c).trans (by chain_rfl)

/-- The launch element: two copies of the pipeline library's, one for the kit and one carried to region 1. -/
abbrev u₀B : UR sig nD τ × UR sig nD τ :=
  (initOf (Pipeline.cells cfgs cellOf_inj) (Pipeline.launchToks cfgs cellOf_inj), initOf (Pipeline.cells cfgs cellOf_inj) (Pipeline.launchToks cfgs cellOf_inj))

/-- What the second copy funds, per core: every pipeline's ghost state. -/
abbrev G2 (c : Dev nD) : sProp 𝕄 :=
  iprop((bigSep Finset.univ fun p : Fin 2 => Pipeline.cellsGhost (Pipeline.pin (pcfgs (F := F)) adm) (embR : Emb (UR sig nD τ) 𝕄) p c)
    ∗ bigSep Finset.univ fun p : Fin 2 => (Pipeline.toksInit (Pipeline.pin (pcfgs (F := F)) adm) (embR : Emb (UR sig nD τ) 𝕄) p c : sProp 𝕄))

/-- The second region's share is among what the second copy funds. -/
theorem G2_ghost2 (c : Dev nD) : (G2 (F := F) c : sProp 𝕄) ⊢ ghost2 (F := F) c := by
  unfold G2 ghost2
  rw [bigSep_erase (Finset.mem_univ (1 : Fin 2)), bigSep_erase (Finset.mem_univ (1 : Fin 2))]
  exact sep_mono sep_elim_left sep_elim_left

variable (ρ : Dev nD → PrngReg)

set_option backward.isDefEq.respectTransparency.types false in
/-- THE FRAME at any float family: from any memory with zero counters every weakly fair execution of @main terminates,
    nothing faulting, and every final memory holds each argument as launched. -/
theorem frameB : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.RDat.θ_run_regions_kit (pcfgs (F := F)) adm (rdatsB (E0B m) (E0B m)) () cellOf_inj (embL : Emb (UR sig nD τ) 𝕄) defs₀ 𝒱₀ L lv m ρ main (segsB m)
    (fun c Q => by rw [main_runB m c])
    (by simp only [segsB, Pipeline.RDat.Seg.pipes_host, Pipeline.RDat.Seg.pipes_region, Pipeline.RDat.Seg.pipes_nil]; decide)
    (O₀ := 0) (hL := fun _ _ => rfl) (G := G2 (F := F)) (u₀ := u₀B)
    (hu₀ := by
      iintro Hu
      ihave H := (ownU_pair _ _) $$ Hu
      icases H with ⟨HP, HP2⟩
      imod (Pipeline.fund_ghost (Pipeline.pin (pcfgs (F := F)) adm) (embR : Emb (UR sig nD τ) 𝕄) cellOf_inj) $$ HP2 with ⟨Hg, Ht⟩
      imodintro
      isplitl [HP]; · iexact HP
      unfold G2
      rw [bigSep_sep']
      isplitl [Hg] <;> iassumption)
    (T₀ := fun c => iprop(StableHlo.held (c : Thread nD τ) (Pipeline.ucRefs τ sig) (Gen.V0 m c) ∗ Rg (F := F) c)) (Tₙ := TnB m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, HG⟩, -⟩
      imodintro
      isplitl [Hh]; · iexact Hh
      isplitl [Hp HO]
      · isplitl [Hp]; · iexists _; iexact Hp
        iexists ∅; iexact HO
      iapply (G2_ghost2 (F := F) c)
      iexact HG)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => by
      iintro ⟨⟨%Vf, %hV, Hh, -⟩, HSI⟩
      unfold StableHlo.held
      ihave Hr := (pointsTo_read_all (Pipeline.ucRefs τ sig) (fun b => ((c : Thread nD τ).1, b)) Vf s') $$ [Hh HSI]
      · isplitl [Hh] <;> iassumption
      icases Hr with ⟨%h, HSI⟩
      imodintro
      isplitr
      · ipureintro
        exact ⟨(h (Proc.devRef .tc main_arg0) (Finset.mem_filter.mpr ⟨StableHlo.devRef_mem_tcRefs main_arg0, by decide⟩)).trans hV.1,
          (h (Proc.devRef .tc main_arg1) (Finset.mem_filter.mpr ⟨StableHlo.devRef_mem_tcRefs main_arg1, by decide⟩)).trans hV.2.1,
          (h (Proc.devRef .tc main_arg2) (Finset.mem_filter.mpr ⟨StableHlo.devRef_mem_tcRefs main_arg2, by decide⟩)).trans hV.2.2.1,
          (h (Proc.devRef .tc main_arg3) (Finset.mem_filter.mpr ⟨StableHlo.devRef_mem_tcRefs main_arg3, by decide⟩)).trans hV.2.2.2⟩
      · iexact HSI)
    (hQ := fun _ h => h)

end Cert.Kernel.Hand

end
-- ==== Proof.IdealData.lean ====
/-
  The idealized kernel's two pipelined regions as exact proof data.

  Region 0 writes, row block by row block, the array  hs[r, q] = (∑ₖ x[r, k] · W[k, q]) · dinv[r]  (25 blocks of 4096 rows
  over 100000 rows: the last block holds 1696 rows of the array and the rest of its staging buffer holds words nothing
  names). Region 1 writes  out[r, q] = agg[r, q] · dinv[r] + b[q]  over the same blocks. For each region: the arrays as the
  region finds them, each window's block at a point, and what the body leaves in each staging buffer — the block on the
  rows inside the array, a fixed filler on the rows past its end, which no write-back moves and no claim reads.
-/
import proofs.«161486_j65274912964781_1_alg».proof.Proof.Gen.KernelIdeal.Launch
import proofs.«161486_j65274912964781_1_alg».proof.Proof.Gen.KernelIdeal.Skeleton
import proofs.«161486_j65274912964781_1_alg».proof.Proof.Gen.KernelIdeal.Points
import proofs.«161486_j65274912964781_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

local notation "𝕄" => MT nD τ sig Unit (Elt Ideal) ℕ (UR sig nD τ) ℕ

/-- The TensorCore's buffer contents at a segment boundary, read at its references. -/
abbrev Vals : Type := (c : Dev nD) → (b : Ref sig .tc) → Buf (Elt Ideal) ((c : Thread nD τ).loc b)

/-! ## Indices: row `i 0` of an entry `i` of a 100000 × 64 array, in the arrays the entry depends on -/

/-- Entry `(i 0, k)` of the 100000 × 256 input. -/
abbrev lx (i : S100000x64.Idx) (k : Fin 256) : S100000x256.Idx := fun a => match a with
  | ⟨0, _⟩ => ⟨(i 0).val, (i 0).isLt⟩
  | ⟨1, _⟩ => ⟨k.val, k.isLt⟩
/-- Entry `(k, i 1)` of the 256 × 64 weight. -/
abbrev rx (i : S100000x64.Idx) (k : Fin 256) : S256x64.Idx := fun a => match a with
  | ⟨0, _⟩ => ⟨k.val, k.isLt⟩
  | ⟨1, _⟩ => ⟨(i 1).val, (i 1).isLt⟩
/-- Entry `(i 0, 0)` of the 100000 × 1 column of row scales. -/
abbrev dx (i : S100000x64.Idx) : S100000x1.Idx := fun a => match a with
  | ⟨0, _⟩ => ⟨(i 0).val, (i 0).isLt⟩
  | ⟨1, _⟩ => ⟨0, Nat.one_pos⟩
/-- Entry `(0, i 1)` of the 1 × 64 bias row. -/
abbrev bx (i : S100000x64.Idx) : S1x64.Idx := fun a => match a with
  | ⟨0, _⟩ => ⟨0, Nat.one_pos⟩
  | ⟨1, _⟩ => ⟨(i 1).val, (i 1).isLt⟩

/-- The filler past the array's end: the zero word at every position of a staging block (nothing reads it). -/
abbrev zfill {S : Shape} : S.Idx → Elt Ideal EltTy.f32 := fun _ => (FloatOps.ofBits (F := Idealize.ShloMosaic.Ideal) .f32 0#32 : Elt Idealize.ShloMosaic.Ideal EltTy.f32)

section Regions
variable (V : Vals)

/-! ## The arrays a region reads, at their literal types -/

abbrev xArr (c : Dev nD) : S100000x256.Idx → EReal := V c main_arg0
abbrev wArr (c : Dev nD) : S256x64.Idx → EReal := V c main_arg2
abbrev dArr (c : Dev nD) : S100000x1.Idx → EReal := V c main_v15
abbrev aArr (c : Dev nD) : S100000x64.Idx → EReal := V c main_v26
abbrev bArr (c : Dev nD) : S1x64.Idx → EReal := V c main_v27

/-- What region 0 leaves in its result array: each row of `x · W` times the row's scale. -/
def G16 (c : Dev nD) : S100000x64.Idx → EReal := fun i =>
  (∑ k : Fin 256, xArr V c (lx i k) * wArr V c (rx i k)) * dArr V c (dx i)

/-- What region 1 leaves in its result array: the aggregate times the row's scale, plus the bias. -/
def G28 (c : Dev nD) : S100000x64.Idx → EReal := fun i =>
  aArr V c i * dArr V c (dx i) + bArr V c (bx i)

/-! ## The windows' blocks -/

/-- Region 0, window `w`'s block at point `t`, its part inside the array, read off the array as the region finds it. -/
def iblk0 (c : Dev nD) (w : Fin cfg0.W) (t : Fin cfg0.N) : ((cfg0.win w).xblock (cfg0.grid.coords t)).Idx → Elt Ideal (cfg0.win w).elt :=
  ((cfg0.win w).blk t).view.read (Elt Ideal) (V c (Pipeline.arrRef spec0 w))
/-- Region 1's likewise. -/
def iblk1 (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))

/-- The result's block at point `t` of region 0, read off the whole-array function. -/
def oblk0 (c : Dev nD) (t : Fin cfg0.N) : (win0_3.xblock (grid0.coords t)).Idx → Elt Ideal .f32 :=
  (win0_3.blk t).view.read (Elt Ideal) (G16 V c)
/-- Region 1's likewise. -/
def oblk1 (c : Dev nD) (t : Fin cfg1.N) : (win1_3.xblock (grid1.coords t)).Idx → Elt Ideal .f32 :=
  (win1_3.blk t).view.read (Elt Ideal) (G28 V c)

/-! ## The proof data -/

/-- Region 0 on core `c`: the arrays as found; after the body at point `t` each clipped window's buffer at its block on
    the rows inside the array and the zero word past them, the weight's buffer at the weight; the invariant the scoped
    rest and the generator register, untouched; nothing owed; full shares. -/
def dat0 (c : Dev nD) : Dat τ (Elt Ideal) Unit ℕ (UR sig nD τ) ℕ cfg0 c where
  A w := V c (Pipeline.arrRef spec0 w)
  after w t := match w with
    | ⟨0, _⟩ => win0_0.fill (grid0.coords t) zfill (iblk0 V c 0 t)
    | ⟨1, _⟩ => iblk0 V c 1 t
    | ⟨2, _⟩ => win0_2.fill (grid0.coords t) zfill (iblk0 V c 2 t)
    | ⟨3, _⟩ => win0_3.fill (grid0.coords t) zfill (oblk0 V c t)
  Φ _ := Pipeline.ΦA spec0 c
  q _ := fullShare
  owed _ := 0

/-- Region 1 on core `c`, likewise: the aggregate's and the scale's buffers at their blocks, the bias row's at the bias
    row, the result's at its block of `G28`. -/
def dat1 (c : Dev nD) : Dat τ (Elt Ideal) Unit ℕ (UR sig nD τ) ℕ cfg1 c where
  A w := V c (Pipeline.arrRef spec1 w)
  after w t := match w with
    | ⟨0, _⟩ => win1_0.fill (grid1.coords t) zfill (iblk1 V c 0 t)
    | ⟨1, _⟩ => win1_1.fill (grid1.coords t) zfill (iblk1 V c 1 t)
    | ⟨2, _⟩ => iblk1 V c 2 t
    | ⟨3, _⟩ => win1_3.fill (grid1.coords t) zfill (oblk1 V c t)
  Φ _ := Pipeline.ΦA spec1 c
  q _ := fullShare
  owed _ := 0

theorem A_eq0 (c : Dev nD) (w : Fin cfg0.W) : (dat0 V c).A w = V c (Pipeline.arrRef spec0 w) := by dsimp only [dat0]
theorem A_eq1 (c : Dev nD) (w : Fin cfg1.W) : (dat1 V c).A w = V c (Pipeline.arrRef spec1 w) := by dsimp only [dat1]

theorem after0_0 (c : Dev nD) (t : Fin cfg0.N) : (dat0 V c).after 0 t = win0_0.fill (grid0.coords t) zfill (iblk0 V c 0 t) := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = win0_2.fill (grid0.coords t) zfill (iblk0 V c 2 t) := by dsimp only [dat0]
theorem after0_3 (c : Dev nD) (t : Fin cfg0.N) : (dat0 V c).after 3 t = win0_3.fill (grid0.coords t) zfill (oblk0 V c t) := by dsimp only [dat0]
theorem after1_0 (c : Dev nD) (t : Fin cfg1.N) : (dat1 V c).after 0 t = win1_0.fill (grid1.coords t) zfill (iblk1 V c 0 t) := by dsimp only [dat1]
theorem after1_1 (c : Dev nD) (t : Fin cfg1.N) : (dat1 V c).after 1 t = win1_1.fill (grid1.coords t) zfill (iblk1 V c 1 t) := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = win1_3.fill (grid1.coords t) zfill (oblk1 V c t) := by dsimp only [dat1]

end Regions

/-! ## The buffer contents at each segment boundary: a fold through @main -/

variable (m : (ℓ : Loc nD τ sig) → Buf (Elt Ideal) ℓ)

/-- Region 0's entry contents: the launch memory after the three host stretches before it. -/
abbrev E0 : Vals := fun c b => Gen.V3 m c b
/-- At region 0's exit: its arrays at what the pipeline leaves, every other buffer as entered. -/
def W4 (c : Dev nD) : Valuation τ sig (Elt Ideal) :=
  Pipeline.withArrays spec0 c (Gen.V3 m c) fun w => (dat0 (E0 m) c).arrAt w cfg0.N
/-- After the host stretch between the regions (region 1's entry). -/
abbrev W5 (c : Dev nD) : Valuation τ sig (Elt Ideal) := StableHlo.after hostOps1 (W4 m c)
abbrev E1 : Vals := fun c b => W5 m c b
/-- At region 1's exit. -/
def W6 (c : Dev nD) : Valuation τ sig (Elt Ideal) :=
  Pipeline.withArrays spec1 c (W5 m c) fun w => (dat1 (E1 m) c).arrAt w cfg1.N

end Cert.KernelIdeal.Hand

end
-- ==== Proof.PayIdeal.lean ====
import proofs.«161486_j65274912964781_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-! ## One column spread over many

A `[a, 1]` array broadcast to `[a, b]` keeps its row coordinate and forgets the column: the operand's only
column is read whatever column is asked for. -/

/-- A `[a, 1]` array broadcast to `[a, b]` reads, at `(p, c)`, the operand's row `p` in its one column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    -- a row axis of extent one has the single row 0, which is then also `p`
    show p.val = if a = 1 then 0 else p.val
    split
    · have := p.isLt; omega
    · rfl
  | ⟨1, _⟩ => rfl

/-! ## The contraction's operand indices

The product contracts axis 1 of the left operand with axis 0 of the right one and has no batch axis: at output
index `i` and contraction index `q` the left operand is read at `(i 0, q)` and the right one at `(q, i 1)`.
One statement per operand axis. -/

theorem lhs_mm_0 (i : S4096x64.Idx) (q : dot_S4096x256_S256x64_S4096x64_1_0_0_1_n_n.contr.Idx) :
    (dot_S4096x256_S256x64_S4096x64_1_0_0_1_n_n.lhsIdx i q 0).val = (i 0).val := by
  unfold DotDims.lhsIdx
  rw [dif_neg (show ¬(0 : Fin S4096x256.rank) ∈ dot_S4096x256_S256x64_S4096x64_1_0_0_1_n_n.lhsBatch by decide), dif_pos (show (0 : Fin S4096x256.rank) ∈ dot_S4096x256_S256x64_S4096x64_1_0_0_1_n_n.lhsNonContracting by decide)]
  rfl
theorem lhs_mm_1 (i : S4096x64.Idx) (q : dot_S4096x256_S256x64_S4096x64_1_0_0_1_n_n.contr.Idx) :
    (dot_S4096x256_S256x64_S4096x64_1_0_0_1_n_n.lhsIdx i q 1).val = (q ⟨0, by decide⟩).val :=
  dot_S4096x256_S256x64_S4096x64_1_0_0_1_n_n.lhsIdx_val_of_single rfl i q
theorem rhs_mm_0 (i : S4096x64.Idx) (q : dot_S4096x256_S256x64_S4096x64_1_0_0_1_n_n.contr.Idx) :
    (dot_S4096x256_S256x64_S4096x64_1_0_0_1_n_n.rhsIdx i q 0).val = (q ⟨0, by decide⟩).val :=
  dot_S4096x256_S256x64_S4096x64_1_0_0_1_n_n.rhsIdx_val_of_single rfl i q
theorem rhs_mm_1 (i : S4096x64.Idx) (q : dot_S4096x256_S256x64_S4096x64_1_0_0_1_n_n.contr.Idx) :
    (dot_S4096x256_S256x64_S4096x64_1_0_0_1_n_n.rhsIdx i q 1).val = (i 1).val := by
  unfold DotDims.rhsIdx
  rw [dif_neg (show ¬(1 : Fin S256x64.rank) ∈ dot_S4096x256_S256x64_S4096x64_1_0_0_1_n_n.rhsBatch by decide), dif_pos (show (1 : Fin S256x64.rank) ∈ dot_S4096x256_S256x64_S4096x64_1_0_0_1_n_n.rhsNonContracting by decide)]
  rfl

/-! ## The matrix product into the zero accumulator, at an index -/

/-- Entry `(r, q)` of the product accumulated into zero is the row of the left operand times the column of the
    right one, summed over the 256 contracted entries: the accumulator's `0 +` is gone and the contraction index
    is its one coordinate. -/
theorem matmul_zero_apply (x : FVec Ideal S4096x256 .bf16) (w : FVec Ideal S256x64 .bf16) (r : Fin 4096) (q : Fin 64) :
    matmul dot_S4096x256_S256x64_S4096x64_1_0_0_1_n_n none x w (constant (F := Ideal) S4096x64 .f32 0x00000000#32) (ix2 r q)
      = ∑ k : Fin 256, x (ix2 r k) * w (ix2 k q) := by
  simp only [matmul]
  rw [Ideal.matmul_constant_zero_apply, ← Equiv.sum_comp (contrEquiv1 dot_S4096x256_S256x64_S4096x64_1_0_0_1_n_n 256 rfl rfl).symm]
  refine Finset.sum_congr rfl fun k _ => ?_
  have hk := contrEquiv1_symm_val dot_S4096x256_S256x64_S4096x64_1_0_0_1_n_n 256 rfl rfl k
  have el : dot_S4096x256_S256x64_S4096x64_1_0_0_1_n_n.lhsIdx (ix2 r q) ((contrEquiv1 dot_S4096x256_S256x64_S4096x64_1_0_0_1_n_n 256 rfl rfl).symm k) = ix2 r k := funext fun a => Fin.ext (by
    match a with
    | ⟨0, _⟩ => exact lhs_mm_0 _ _
    | ⟨1, _⟩ => exact (lhs_mm_1 _ _).trans hk)
  have er : dot_S4096x256_S256x64_S4096x64_1_0_0_1_n_n.rhsIdx (ix2 r q) ((contrEquiv1 dot_S4096x256_S256x64_S4096x64_1_0_0_1_n_n 256 rfl rfl).symm k) = ix2 k q := funext fun a => Fin.ext (by
    match a with
    | ⟨0, _⟩ => exact (rhs_mm_0 _ _).trans hk
    | ⟨1, _⟩ => exact rhs_mm_1 _ _)
  rw [el, er]

/-! ## The two stored blocks, entry by entry -/

/-- Row r, column q of the first kernel's stored block: the row of x times the column of W, summed over the 256
    contracted entries, times the row's scale. -/
theorem k0_pay1_apply (v0 : Vec Ideal S4096x256 .f32) (v2 : Vec Ideal S256x64 .f32) (v5 : Vec Ideal S4096x1 .f32)
    (r : Fin 4096) (q : Fin 64) :
    k0_pay1 (F := Ideal) v0 v2 v5 (ix2 r q) = (∑ k : Fin 256, v0 (ix2 r k) * v2 (ix2 k q)) * v5 (ix2 r (0 : Fin 1)) := by
  unfold k0_pay1
  -- an entrywise product; the matrix product as a sum; the cast to the same shape is the identity; the scale's one
  -- column is read at every column
  rw [mulf_apply, matmul_zero_apply, shapeCast_self, broadcastTo_a1_ab_apply]
  -- what is left differs only by the narrowing of the two operands, which is the identity on extended reals
  rfl

/-- Row r, column q of the second kernel's stored block: the aggregate times the row's scale, plus the bias entry. -/
theorem k1_pay1_apply (v0 : Vec Ideal S4096x64 .f32) (v2 : Vec Ideal S4096x1 .f32) (v6 : Vec Ideal S1x64 .f32)
    (r : Fin 4096) (q : Fin 64) :
    k1_pay1 (F := Ideal) v0 v2 v6 (ix2 r q) = v0 (ix2 r q) * v2 (ix2 r (0 : Fin 1)) + v6 (ix2 (0 : Fin 1) q) := by
  unfold k1_pay1
  -- an entrywise sum of an entrywise product and the bias; the three casts to the same shape are the identity; the
  -- scale's one column and the bias's one row are read at every column and every row
  rw [addf_apply, mulf_apply, shapeCast_self, shapeCast_self, shapeCast_self, broadcastTo_a1_ab_apply,
    broadcastTo_1b_ab_apply]

end Cert.KernelIdeal.Hand

end
-- ==== Proof.Body.lean ====
/-
  The two kernel bodies of the program, as Hoare triples over whole staging memrefs, at any float family and any
  user resource algebra.

  * The first body loads a 4096×256 block x, the 256×64 weight W and a 4096×1 column dinv, forms the matrix
    product x·W (both operands rounded to bf16, accumulated from zero in f32), broadcasts dinv along the 64
    columns and multiplies elementwise: the output block is (x·W)·dinv, row r scaled by dinv r.  It also loads the
    output block before storing it (a dead load: the loaded value is used nowhere).
  * The second body loads a 4096×64 block agg, the 4096×1 column dinv and the 1×64 bias row, broadcasts dinv along
    the columns and the bias along the rows: the output block is agg·dinv + bias.  The same dead load of the output.

  Each body's ONE store is at offsets (0, 0) with the buffer's own sizes, so it covers the buffer and what the
  buffer holds afterwards is the stored payload itself; each load is through the same whole rectangle and reads the
  buffer's contents.  Hence: the inputs are left as they were and the output holds the payload of the inputs.
-/
import proofs.«161486_j65274912964781_1_alg».proof.Proof.Gen.KernelIdeal.Skeleton
import proofs.«161486_j65274912964781_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

/-- The offsets (0, 0), as the constant-zero function. -/
private theorem hz : (![0, 0] : Fin 2 → Nat) = fun _ => 0 := funext fun a => by fin_cases a <;> rfl

/-- One store through the whole-shape rectangle at zero offsets leaves its payload in the buffer, whatever the
    view and whatever was there before: the rectangle holds every index, and under it the contents are the payload. -/
private theorem read_store_unit_zero {sg : RefSig} {κ : Kind} {sp : Space} {S : Shape} {e : EltTy} {Val : EltTy → Type}
    [∀ e, Nonempty (Val e)] (v : View sg κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w :=
  (View.read_writes_eq_canon v f _ (fun y =>
    ⟨_, List.mem_singleton_self _, View.mem_set_unit_zero h inb y⟩)).trans (View.canon_unit_zero h inb w)

set_option maxHeartbeats 1000000 in
/-- The first body: the inputs stay, the output holds (x·W)·dinv of them. -/
theorem sound_kernel0 (c : Dev nD) (E : Set ℕ) (i : grid0.Coords)
    (a0 : Memref sig .tc .vmem S4096x256 .f32) (h0 : a0.IsWhole) (a1 : Memref sig .tc .vmem S256x64 .f32) (h1 : a1.IsWhole)
    (a2 : Memref sig .tc .vmem S4096x1 .f32) (h2 : a2.IsWhole) (a3 : Memref sig .tc .vmem S4096x64 .f32) (h3 : a3.IsWhole)
    (x0 : Vec F S4096x256 .f32) (x1 : Vec F S256x64 .f32) (x2 : Vec F S4096x1 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
              ∗ owns (c : Thread nD τ) a3 fullShare (k0_pay1 x0 x1 x2)) -∗ K ⟨⟩))
      ⊢ wp frame (wpE (defs₀ (F := F)) Variants.none c none) E (cc0__matmul_scale_kernel i a0 h0 a1 h1 a2 h2 a3 h3) K := by
  simp only [cc0__matmul_scale_kernel_eq_skeleton]; unfold cc0__matmul_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_store_unit_zero (S := S4096x64) _ _ hz _ _).trans ?_
  simp only [View.readAt_eq_ld]
  rw [View.ld_unit_zero (S := S4096x256) hz, View.ld_unit_zero (S := S256x64) hz, View.ld_unit_zero (S := S4096x1) hz]

set_option maxHeartbeats 1000000 in
/-- The second body: the inputs stay, the output holds agg·dinv + bias of them. -/
theorem sound_kernel1 (c : Dev nD) (E : Set ℕ) (i : grid1.Coords)
    (a0 : Memref sig .tc .vmem S4096x64 .f32) (h0 : a0.IsWhole) (a1 : Memref sig .tc .vmem S4096x1 .f32) (h1 : a1.IsWhole)
    (a2 : Memref sig .tc .vmem S1x64 .f32) (h2 : a2.IsWhole) (a3 : Memref sig .tc .vmem S4096x64 .f32) (h3 : a3.IsWhole)
    (x0 : Vec F S4096x64 .f32) (x1 : Vec F S4096x1 .f32) (x2 : Vec F S1x64 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
              ∗ owns (c : Thread nD τ) a3 fullShare (k1_pay1 x0 x1 x2)) -∗ K ⟨⟩))
      ⊢ wp frame (wpE (defs₀ (F := F)) Variants.none c none) E (cc1__finalize_kernel i a0 h0 a1 h1 a2 h2 a3 h3) K := by
  simp only [cc1__finalize_kernel_eq_skeleton]; unfold cc1__finalize_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (read_store_unit_zero (S := S4096x64) _ _ hz _ _).trans ?_
  simp only [View.readAt_eq_ld]
  rw [View.ld_unit_zero (S := S4096x64) hz, View.ld_unit_zero (S := S4096x1) hz, View.ld_unit_zero (S := S1x64) hz]

end Cert.KernelIdeal.Hand

end
-- ==== Proof.IdealOblig.lean ====
/-
  The two regions' body obligations at the ideal instance: at every grid point the body, handed its windows' staging buffers as the pipeline fetched them, leaves each at what the proof data say on the rows inside the arrays.

  Region 0, at point t: the input's and the scale column's buffers arrive holding their blocks on the rows inside the array and
  any words d past its end, the weight's buffer the whole weight, the result's anything. The body leaves the three inputs as found
  and the result's buffer at  X[r, q] = (∑ₖ x̃[r, k] · W[k, q]) · d̃[r]  of what it found (x̃, d̃ the filled buffers). The three
  clipped windows cut the same rows, so on a row r inside the array x̃[r, ·] and d̃[r] are the array's row  (block index · 4096 + r),
  and X[r, q] is the entry of  (x · W) · dinv  there: X, cut to the rows inside the array, is the result's block. Region 1 is the
  same with the entrywise  agg[r, q] · dinv[r] + b[q].
-/
import proofs.«161486_j65274912964781_1_alg».proof.Proof.IdealData
import proofs.«161486_j65274912964781_1_alg».proof.Proof.PayIdeal
import proofs.«161486_j65274912964781_1_alg».proof.Proof.Body

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

local notation "𝕄" => MT nD τ sig Unit (Elt Ideal) ℕ (UR sig nD τ) ℕ

section Region0
variable (V : Vals) (c : Dev nD)

/-! ## Region 0: what the body finds in each staging buffer -/

/-- The input's buffer, fetched at every point: its block on the rows inside the array, `d` past them. -/
theorem before0_0 (t : Fin cfg0.N) (d) :
    (dat0 V c).before (0 : Fin 4) t d = win0_0.fill (grid0.coords t) d (iblk0 V c 0 t) := by
  rw [(dat0 V c).before_fetched 0 t (fetch0_0 t) d]
  unfold Dat.fetched Dat.blockOf iblk0
  rw [A_eq0]

/-- The scale column's buffer, fetched at every point, likewise. -/
theorem before0_2 (t : Fin cfg0.N) (d) :
    (dat0 V c).before (2 : Fin 4) t d = win0_2.fill (grid0.coords t) d (iblk0 V c 2 t) := by
  rw [(dat0 V c).before_fetched 2 t (fetch0_2 t) d]
  unfold Dat.fetched Dat.blockOf iblk0
  rw [A_eq0]

/-- The result's buffer, written back at every point: anything. -/
theorem before0_3 (t : Fin cfg0.N) (d) : (dat0 V c).before (3 : Fin 4) t d = d := by
  refine (dat0 V c).before_out_reset 3 rfl t ?_ d
  by_cases h0 : t.val = 0
  · exact .inl h0
  · exact .inr ⟨h0, flush0_3 _⟩

/-- The weight's buffer, fetched once and left in place by the body: the whole weight at every point (its block index
    never moves and nothing cuts it). -/
theorem before0_1 (t : Fin cfg0.N) (d) : (dat0 V c).before (1 : Fin 4) t d = iblk0 V c 1 t := by
  refine ((dat0 V c).before_in_eq_fetched 1 rfl (fun _ => rfl) (fun _ _ _ => rfl) (fun t => ?_) t d).trans ?_
  · rw [after0_1]; unfold Dat.blockOf iblk0; rw [A_eq0]
  · unfold Dat.fetched Dat.blockOf iblk0; rw [A_eq0]; rfl

/-! ## Region 0: a block's element is the array's at block index times block size plus its coordinate -/

theorem oblk0_apply (t : Fin cfg0.N) (j' : (win0_3.xblock (grid0.coords t)).Idx) :
    oblk0 V c t j' = G16 V c ((win0_3.rect t).emb j') := rfl
theorem iblk0_0_apply (t : Fin cfg0.N) (j' : (win0_0.xblock (grid0.coords t)).Idx) :
    iblk0 V c 0 t j' = xArr V c ((win0_0.rect t).emb j') := rfl
theorem iblk0_1_apply (t : Fin cfg0.N) (j' : (win0_1.xblock (grid0.coords t)).Idx) :
    iblk0 V c 1 t j' = wArr V c ((win0_1.rect t).emb j') := rfl
theorem iblk0_2_apply (t : Fin cfg0.N) (j' : (win0_2.xblock (grid0.coords t)).Idx) :
    iblk0 V c 2 t j' = dArr V c ((win0_2.rect t).emb j') := rfl

/-! The three clipped windows have one row index map and one cut of the rows; their column block index is 0; the weight's
    block index is 0 on both axes. -/

theorem index0_0 (t : Fin grid0.N) : win0_0.index t 0 = win0_3.index t 0 := rfl
theorem index0_2 (t : Fin grid0.N) : win0_2.index t 0 = win0_3.index t 0 := rfl
theorem index0_0_1 (t : Fin grid0.N) : win0_0.index t 1 = 0 := rfl
theorem index0_2_1 (t : Fin grid0.N) : win0_2.index t 1 = 0 := rfl
theorem index0_3_1 (t : Fin grid0.N) : win0_3.index t 1 = 0 := rfl
theorem index0_1 (t : Fin grid0.N) (a) : win0_1.index t a = 0 := by
  match a with | ⟨0, _⟩ => rfl | ⟨1, _⟩ => rfl

/-- The input's buffer, filled by the fetch, read at a row the fetch moved: the array at that row of the block. -/
theorem read0_0 (t : Fin cfg0.N) (d0 : S4096x256.Idx → Elt Ideal .f32) (r : Fin 4096) (k : Fin 256)
    (hr : r.val < win0_3.xsize (grid0.coords t) 0) (i : S100000x64.Idx)
    (hi : (i 0).val = win0_3.index t 0 * 4096 + r.val) :
    win0_0.fill (grid0.coords t) d0 (iblk0 V c 0 t) (ix2 r k) = xArr V c (lx i k) := by
  have hm : win0_0.moved (grid0.coords t) (ix2 r k) = true := (win0_0.moved_iff _ _).mpr fun a => by
    match a with
    | ⟨0, _⟩ => exact hr
    | ⟨1, _⟩ => exact k.isLt
  unfold Window.fill; rw [dif_pos hm]
  refine (iblk0_0_apply V c t _).trans (congrArg (xArr V c) (funext fun a => Fin.ext ?_))
  rw [Window.rect_emb_val]
  match a with
  | ⟨0, _⟩ => exact hi.symm
  | ⟨1, _⟩ => show win0_0.index t 1 * 256 + k.val = k.val; rw [index0_0_1]; omega

/-- The scale column's buffer likewise. -/
theorem read0_2 (t : Fin cfg0.N) (d2 : S4096x1.Idx → Elt Ideal .f32) (r : Fin 4096)
    (hr : r.val < win0_3.xsize (grid0.coords t) 0) (i : S100000x64.Idx)
    (hi : (i 0).val = win0_3.index t 0 * 4096 + r.val) :
    win0_2.fill (grid0.coords t) d2 (iblk0 V c 2 t) (ix2 r (0 : Fin 1)) = dArr V c (dx i) := by
  have hm : win0_2.moved (grid0.coords t) (ix2 r (0 : Fin 1)) = true := (win0_2.moved_iff _ _).mpr fun a => by
    match a with
    | ⟨0, _⟩ => exact hr
    | ⟨1, _⟩ => exact Nat.one_pos
  unfold Window.fill; rw [dif_pos hm]
  refine (iblk0_2_apply V c t _).trans (congrArg (dArr V c) (funext fun a => Fin.ext ?_))
  rw [Window.rect_emb_val]
  match a with
  | ⟨0, _⟩ => exact hi.symm
  | ⟨1, _⟩ => show win0_2.index t 1 * 1 + 0 = 0; rw [index0_2_1]

/-- The weight's buffer holds the whole weight. -/
theorem read0_1 (t : Fin cfg0.N) (k : Fin 256) (q : Fin 64) (i : S100000x64.Idx) (hi : (i 1).val = q.val) :
    iblk0 V c 1 t (ix2 k q) = wArr V c (rx i k) := by
  refine (iblk0_1_apply V c t _).trans (congrArg (wArr V c) (funext fun a => Fin.ext ?_))
  rw [Window.rect_emb_val, index0_1]
  match a with
  | ⟨0, _⟩ => show 0 * 256 + k.val = k.val; omega
  | ⟨1, _⟩ => show 0 * 64 + q.val = (i 1).val; omega

/-! ## Region 0: what the body leaves in the result's buffer, cut to the rows inside the array, is the result's block -/

/-- What the first body leaves in the result's buffer, given what it found in the three inputs'. -/
abbrev bodyOut0 (t : Fin cfg0.N) (d0 : S4096x256.Idx → Elt Ideal .f32) (d2 : S4096x1.Idx → Elt Ideal .f32) :
    S4096x64.Idx → Elt Ideal .f32 :=
  k0_pay1 (F := Ideal) (win0_0.fill (grid0.coords t) d0 (iblk0 V c 0 t)) (iblk0 V c 1 t)
    (win0_2.fill (grid0.coords t) d2 (iblk0 V c 2 t))

/-- On a row r inside the array and a column q, X[r, q] = (∑ₖ x[R, k] · W[k, q]) · dinv[R] at the array's row
    R = block index · 4096 + r: the filled buffers are read at rows the fetches moved. -/
theorem cut_bodyOut0 (t : Fin cfg0.N) (d0) (d2) :
    win0_3.cut (grid0.coords t) (bodyOut0 V c t d0 d2) = oblk0 V c t := by
  funext j'
  have hr0 : (j' 0).val < win0_3.xsize (grid0.coords t) 0 := (j' 0).isLt
  have hr' : (j' 0).val < 4096 := lt_of_lt_of_le hr0 (win0_3.xsize_le _ 0)
  have hq : (j' 1).val < 64 := (j' 1).isLt
  obtain ⟨r, hrv⟩ : ∃ r : Fin 4096, r.val = (j' 0).val := ⟨⟨_, hr'⟩, rfl⟩
  obtain ⟨q, hqv⟩ : ∃ q : Fin 64, q.val = (j' 1).val := ⟨⟨_, hq⟩, rfl⟩
  have hj : win0_3.xinj (grid0.coords t) j' = ix2 r q := by
    funext a
    match a with
    | ⟨0, _⟩ => exact Fin.ext hrv.symm
    | ⟨1, _⟩ => exact Fin.ext hqv.symm
  have hr : r.val < win0_3.xsize (grid0.coords t) 0 := hrv ▸ hr0
  have hi0 : (((win0_3.rect t).emb j') 0).val = win0_3.index t 0 * 4096 + r.val :=
    (win0_3.rect_emb_val t j' 0).trans (by rw [hrv]; rfl)
  have hi1 : (((win0_3.rect t).emb j') 1).val = q.val := by
    rw [win0_3.rect_emb_val t j' 1, index0_3_1, hqv]; omega
  show bodyOut0 V c t d0 d2 (win0_3.xinj (grid0.coords t) j') = oblk0 V c t j'
  rw [hj, oblk0_apply]
  refine (k0_pay1_apply _ _ _ _ _).trans ?_
  unfold G16
  rw [read0_2 V c t d2 r hr _ hi0]
  refine congrArg (· * _) (Finset.sum_congr rfl fun k _ => ?_)
  rw [read0_0 V c t d0 r k hr _ hi0, read0_1 V c t k q _ hi1]

end Region0

section Region1
variable (V : Vals) (c : Dev nD)

/-! ## Region 1: what the body finds in each staging buffer -/

/-- The aggregate's buffer, fetched at every point: its block on the rows inside the array, `d` past them. -/
theorem before1_0 (t : Fin cfg1.N) (d) :
    (dat1 V c).before (0 : Fin 4) t d = win1_0.fill (grid1.coords t) d (iblk1 V c 0 t) := by
  rw [(dat1 V c).before_fetched 0 t (fetch1_0 t) d]
  unfold Dat.fetched Dat.blockOf iblk1
  rw [A_eq1]

/-- The scale column's buffer, fetched at every point, likewise. -/
theorem before1_1 (t : Fin cfg1.N) (d) :
    (dat1 V c).before (1 : Fin 4) t d = win1_1.fill (grid1.coords t) d (iblk1 V c 1 t) := by
  rw [(dat1 V c).before_fetched 1 t (fetch1_1 t) d]
  unfold Dat.fetched Dat.blockOf iblk1
  rw [A_eq1]

/-- The result's buffer, written back at every point: anything. -/
theorem before1_3 (t : Fin cfg1.N) (d) : (dat1 V c).before (3 : Fin 4) t d = d := by
  refine (dat1 V c).before_out_reset 3 rfl t ?_ d
  by_cases h0 : t.val = 0
  · exact .inl h0
  · exact .inr ⟨h0, flush1_3 _⟩

/-- The bias row's buffer, fetched once and left in place by the body: the whole row at every point. -/
theorem before1_2 (t : Fin cfg1.N) (d) : (dat1 V c).before (2 : Fin 4) t d = iblk1 V c 2 t := by
  refine ((dat1 V c).before_in_eq_fetched 2 rfl (fun _ => rfl) (fun _ _ _ => rfl) (fun t => ?_) t d).trans ?_
  · rw [after1_2]; unfold Dat.blockOf iblk1; rw [A_eq1]
  · unfold Dat.fetched Dat.blockOf iblk1; rw [A_eq1]; rfl

/-! ## Region 1: a block's element is the array's at block index times block size plus its coordinate -/

theorem oblk1_apply (t : Fin cfg1.N) (j' : (win1_3.xblock (grid1.coords t)).Idx) :
    oblk1 V c t j' = G28 V c ((win1_3.rect t).emb j') := rfl
theorem iblk1_0_apply (t : Fin cfg1.N) (j' : (win1_0.xblock (grid1.coords t)).Idx) :
    iblk1 V c 0 t j' = aArr V c ((win1_0.rect t).emb j') := rfl
theorem iblk1_1_apply (t : Fin cfg1.N) (j' : (win1_1.xblock (grid1.coords t)).Idx) :
    iblk1 V c 1 t j' = dArr V c ((win1_1.rect t).emb j') := rfl
theorem iblk1_2_apply (t : Fin cfg1.N) (j' : (win1_2.xblock (grid1.coords t)).Idx) :
    iblk1 V c 2 t j' = bArr V c ((win1_2.rect t).emb j') := rfl

theorem index1_0 (t : Fin grid1.N) : win1_0.index t 0 = win1_3.index t 0 := rfl
theorem index1_1 (t : Fin grid1.N) : win1_1.index t 0 = win1_3.index t 0 := rfl
theorem index1_0_1 (t : Fin grid1.N) : win1_0.index t 1 = 0 := rfl
theorem index1_1_1 (t : Fin grid1.N) : win1_1.index t 1 = 0 := rfl
theorem index1_3_1 (t : Fin grid1.N) : win1_3.index t 1 = 0 := rfl
theorem index1_2 (t : Fin grid1.N) (a) : win1_2.index t a = 0 := by
  match a with | ⟨0, _⟩ => rfl | ⟨1, _⟩ => rfl

/-- The aggregate's buffer, filled by the fetch, read at a row the fetch moved: the array at that row of the block. -/
theorem read1_0 (t : Fin cfg1.N) (d0 : S4096x64.Idx → Elt Ideal .f32) (r : Fin 4096) (q : Fin 64)
    (hr : r.val < win1_3.xsize (grid1.coords t) 0) (i : S100000x64.Idx)
    (hi0 : (i 0).val = win1_3.index t 0 * 4096 + r.val) (hi1 : (i 1).val = q.val) :
    win1_0.fill (grid1.coords t) d0 (iblk1 V c 0 t) (ix2 r q) = aArr V c i := by
  have hm : win1_0.moved (grid1.coords t) (ix2 r q) = true := (win1_0.moved_iff _ _).mpr fun a => by
    match a with
    | ⟨0, _⟩ => exact hr
    | ⟨1, _⟩ => exact q.isLt
  unfold Window.fill; rw [dif_pos hm]
  refine (iblk1_0_apply V c t _).trans (congrArg (aArr V c) (funext fun a => Fin.ext ?_))
  rw [Window.rect_emb_val]
  match a with
  | ⟨0, _⟩ => exact hi0.symm
  | ⟨1, _⟩ => show win1_0.index t 1 * 64 + q.val = (i 1).val; rw [index1_0_1]; omega

/-- The scale column's buffer likewise. -/
theorem read1_1 (t : Fin cfg1.N) (d1 : S4096x1.Idx → Elt Ideal .f32) (r : Fin 4096)
    (hr : r.val < win1_3.xsize (grid1.coords t) 0) (i : S100000x64.Idx)
    (hi : (i 0).val = win1_3.index t 0 * 4096 + r.val) :
    win1_1.fill (grid1.coords t) d1 (iblk1 V c 1 t) (ix2 r (0 : Fin 1)) = dArr V c (dx i) := by
  have hm : win1_1.moved (grid1.coords t) (ix2 r (0 : Fin 1)) = true := (win1_1.moved_iff _ _).mpr fun a => by
    match a with
    | ⟨0, _⟩ => exact hr
    | ⟨1, _⟩ => exact Nat.one_pos
  unfold Window.fill; rw [dif_pos hm]
  refine (iblk1_1_apply V c t _).trans (congrArg (dArr V c) (funext fun a => Fin.ext ?_))
  rw [Window.rect_emb_val]
  match a with
  | ⟨0, _⟩ => exact hi.symm
  | ⟨1, _⟩ => show win1_1.index t 1 * 1 + 0 = 0; rw [index1_1_1]

/-- The bias row's buffer holds the whole row. -/
theorem read1_2 (t : Fin cfg1.N) (q : Fin 64) (i : S100000x64.Idx) (hi : (i 1).val = q.val) :
    iblk1 V c 2 t (ix2 (0 : Fin 1) q) = bArr V c (bx i) := by
  refine (iblk1_2_apply V c t _).trans (congrArg (bArr V c) (funext fun a => Fin.ext ?_))
  rw [Window.rect_emb_val, index1_2]
  match a with
  | ⟨0, _⟩ => show 0 * 1 + 0 = 0; rfl
  | ⟨1, _⟩ => show 0 * 64 + q.val = (i 1).val; omega

/-! ## Region 1: what the body leaves in the result's buffer, cut to the rows inside the array, is the result's block -/

/-- What the second body leaves in the result's buffer, given what it found in the three inputs'. -/
abbrev bodyOut1 (t : Fin cfg1.N) (d0 : S4096x64.Idx → Elt Ideal .f32) (d1 : S4096x1.Idx → Elt Ideal .f32) :
    S4096x64.Idx → Elt Ideal .f32 :=
  k1_pay1 (F := Ideal) (win1_0.fill (grid1.coords t) d0 (iblk1 V c 0 t))
    (win1_1.fill (grid1.coords t) d1 (iblk1 V c 1 t)) (iblk1 V c 2 t)

/-- On a row r inside the array and a column q, X[r, q] = agg[R, q] · dinv[R] + b[q] at the array's row
    R = block index · 4096 + r. -/
theorem cut_bodyOut1 (t : Fin cfg1.N) (d0) (d1) :
    win1_3.cut (grid1.coords t) (bodyOut1 V c t d0 d1) = oblk1 V c t := by
  funext j'
  have hr0 : (j' 0).val < win1_3.xsize (grid1.coords t) 0 := (j' 0).isLt
  have hr' : (j' 0).val < 4096 := lt_of_lt_of_le hr0 (win1_3.xsize_le _ 0)
  have hq : (j' 1).val < 64 := (j' 1).isLt
  obtain ⟨r, hrv⟩ : ∃ r : Fin 4096, r.val = (j' 0).val := ⟨⟨_, hr'⟩, rfl⟩
  obtain ⟨q, hqv⟩ : ∃ q : Fin 64, q.val = (j' 1).val := ⟨⟨_, hq⟩, rfl⟩
  have hj : win1_3.xinj (grid1.coords t) j' = ix2 r q := by
    funext a
    match a with
    | ⟨0, _⟩ => exact Fin.ext hrv.symm
    | ⟨1, _⟩ => exact Fin.ext hqv.symm
  have hr : r.val < win1_3.xsize (grid1.coords t) 0 := hrv ▸ hr0
  have hi0 : (((win1_3.rect t).emb j') 0).val = win1_3.index t 0 * 4096 + r.val :=
    (win1_3.rect_emb_val t j' 0).trans (by rw [hrv]; rfl)
  have hi1 : (((win1_3.rect t).emb j') 1).val = q.val := by
    rw [win1_3.rect_emb_val t j' 1, index1_3_1, hqv]; omega
  show bodyOut1 V c t d0 d1 (win1_3.xinj (grid1.coords t) j') = oblk1 V c t j'
  rw [hj, oblk1_apply]
  refine (k1_pay1_apply _ _ _ _ _).trans ?_
  unfold G28
  rw [read1_0 V c t d0 r q hr _ hi0 hi1, read1_1 V c t d1 r hr _ hi0, read1_2 V c t q _ hi1]

end Region1

/-- Region 0: the matmul-and-scale body meets its proof data at every point (all three clipped windows loose). -/
theorem body_obligation0 (V : Vals) (c : Dev nD) :
    Pipeline.BodyObligationLoose (dat0 V c) (defs₀ (F := Ideal)) Variants.none () Set.univ := fun t => by
  rw [bigSep_W0, bigSep_W0]
  -- no point is idle; windows 0, 2, 3 are stated on the rows inside the array only, window 1 exactly
  simp only
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩⟩
  rw [before0_0 V c t d0, before0_1 V c t d1, before0_2 V c t d2, before0_3 V c t d3]
  iapply (sound_kernel0 (F := Ideal) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_0.fill (grid0.coords t) d0 (iblk0 V c 0 t)) (iblk0 V c 1 t)
    (win0_2.fill (grid0.coords t) d2 (iblk0 V c 2 t)) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  -- the inputs' buffers are as found: the proof data's blocks on the rows inside the array, each filled out with its d
  isplitl [H0]
  · iexists d0
    change _ ⊢ owns (c : Thread nD τ) (stage0_0 (cfg0.slots t 0)) fullShare
      (win0_0.fill (grid0.coords t) d0 (win0_0.cut (grid0.coords t) ((dat0 V c).after 0 t)))
    rw [after0_0, Window.cut_fill]
  isplitl [H1]
  · rw [after0_1]; iexact H1
  isplitl [H2]
  · iexists d2
    change _ ⊢ owns (c : Thread nD τ) (stage0_2 (cfg0.slots t 2)) fullShare
      (win0_2.fill (grid0.coords t) d2 (win0_2.cut (grid0.coords t) ((dat0 V c).after 2 t)))
    rw [after0_2, Window.cut_fill]
  -- the result's buffer holds X, which is X filled with its own cut, and its cut is the result's block
  · iexists bodyOut0 V c t d0 d2
    change _ ⊢ owns (c : Thread nD τ) (stage0_3 (cfg0.slots t 3)) fullShare
      (win0_3.fill (grid0.coords t) (bodyOut0 V c t d0 d2) (win0_3.cut (grid0.coords t) ((dat0 V c).after 3 t)))
    rw [after0_3, Window.cut_fill, ← cut_bodyOut0 V c t d0 d2, Window.fill_cut]

/-- Region 1: the scale-and-bias body meets its proof data at every point. -/
theorem body_obligation1 (V : Vals) (c : Dev nD) :
    Pipeline.BodyObligationLoose (dat1 V c) (defs₀ (F := Ideal)) Variants.none () Set.univ := fun t => by
  rw [bigSep_W1, bigSep_W1]
  -- no point is idle; windows 0, 1, 3 are stated on the rows inside the array only, window 2 exactly
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩⟩
  rw [before1_0 V c t d0, before1_1 V c t d1, before1_2 V c t d2, before1_3 V c t d3]
  iapply (sound_kernel1 (F := Ideal) c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (win1_0.fill (grid1.coords t) d0 (iblk1 V c 0 t)) (win1_1.fill (grid1.coords t) d1 (iblk1 V c 1 t))
    (iblk1 V c 2 t) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]
  · iexists d0
    change _ ⊢ owns (c : Thread nD τ) (stage1_0 (cfg1.slots t 0)) fullShare
      (win1_0.fill (grid1.coords t) d0 (win1_0.cut (grid1.coords t) ((dat1 V c).after 0 t)))
    rw [after1_0, Window.cut_fill]
  isplitl [H1]
  · iexists d1
    change _ ⊢ owns (c : Thread nD τ) (stage1_1 (cfg1.slots t 1)) fullShare
      (win1_1.fill (grid1.coords t) d1 (win1_1.cut (grid1.coords t) ((dat1 V c).after 1 t)))
    rw [after1_1, Window.cut_fill]
  isplitl [H2]
  · rw [after1_2]; iexact H2
  · iexists bodyOut1 V c t d0 d1
    change _ ⊢ owns (c : Thread nD τ) (stage1_3 (cfg1.slots t 3)) fullShare
      (win1_3.fill (grid1.coords t) (bodyOut1 V c t d0 d1) (win1_3.cut (grid1.coords t) ((dat1 V c).after 3 t)))
    rw [after1_3, Window.cut_fill, ← cut_bodyOut1 V c t d0 d1, Window.fill_cut]

end Cert.KernelIdeal.Hand

end
-- ==== Proof.IdealRun.lean ====
/-
  The idealized kernel program runs, and where it ends.

  @main is six pieces in order: three stretches of host operations, the first pipelined region (the matmul-and-scale
  kernel), one more stretch of host operations, the second pipelined region (the scale-and-bias kernel). This module
  names the buffer contents at every boundary between two pieces, presents each piece as a step from the contents before
  it to the contents after it, and concludes: from any memory with every counter at zero, every weakly fair execution
  terminates, nothing faults, and at the end every unscoped TensorCore buffer holds the last boundary's contents.

  The contents are a fold from the launch memory. A stretch of host operations replaces the contents by what its
  operations compute from them. A region leaves each of its windows' arrays at what its write-backs have accumulated by
  the last grid point (an input's array as the region found it, an output's array overwritten block by block) and every
  other buffer as the region found it.
-/
import proofs.«161486_j65274912964781_1_alg».proof.Proof.IdealData
import proofs.«161486_j65274912964781_1_alg».proof.Proof.IdealOblig
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

local notation "𝕄" => MT nD τ sig Unit (Elt Ideal) ℕ (UR sig nD τ) ℕ

variable (m : (ℓ : Loc nD τ sig) → Buf (Elt Ideal) ℓ)

/-! ## The contents a region leaves, read buffer by buffer -/

/-- After region 0, the array of its window `w` holds what the window's write-backs have accumulated by the last point. -/
theorem W4_arr (c : Dev nD) (w : Fin cfg0.W) :
    W4 m c (Proc.devRef .tc (Pipeline.arrRef spec0 w)) = (dat0 (E0 m) c).arrAt w cfg0.N := by
  unfold W4; exact Pipeline.withArrays_arr spec0 launch0.win.arr_inj c _ _ w
/-- After region 0, a buffer that is no window's array holds what it held when the region was entered. -/
theorem W4_of_ne (c : Dev nD) (b : Ref sig .tc) (hb : ∀ w, Pipeline.arrRef spec0 w ≠ b) :
    W4 m c (Proc.devRef .tc b) = Gen.V3 m c (Proc.devRef .tc b) := by
  unfold W4; exact Pipeline.withArrays_of_ne spec0 c _ _ b hb
/-- Region 0's exit contents, read at the TensorCore's references. -/
abbrev X0 : Vals := fun c b => W4 m c b
/-- Region 0's exit contents agree with the accumulated write-backs at each of its arrays, -/
theorem hF0 (c : Dev nD) (w : Fin cfg0.W) : (dat0 (E0 m) c).arrAt w cfg0.N = X0 m c (Pipeline.arrRef spec0 w) :=
  (W4_arr m c w).symm
/-- and with the entry contents at every other buffer. -/
theorem hrest0 (c : Dev nD) : ∀ b, b ∉ Finset.univ.image (Pipeline.arrRef spec0) → X0 m c b = E0 m c b :=
  fun b hb => W4_of_ne m c b fun w e => hb (Finset.mem_image.mpr ⟨w, Finset.mem_univ _, e⟩)

/-- After region 1, the array of its window `w` holds what the window's write-backs have accumulated by the last point. -/
theorem W6_arr (c : Dev nD) (w : Fin cfg1.W) :
    W6 m c (Proc.devRef .tc (Pipeline.arrRef spec1 w)) = (dat1 (E1 m) c).arrAt w cfg1.N := by
  unfold W6; exact Pipeline.withArrays_arr spec1 launch1.win.arr_inj c _ _ w
/-- After region 1, a buffer that is no window's array holds what it held when the region was entered. -/
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- Region 1's exit contents, read at the TensorCore's references. -/
abbrev X1 : Vals := fun c b => W6 m c b
/-- Region 1's exit contents agree with the accumulated write-backs at each of its arrays, -/
theorem hF1 (c : Dev nD) (w : Fin cfg1.W) : (dat1 (E1 m) c).arrAt w cfg1.N = X1 m c (Pipeline.arrRef spec1 w) :=
  (W6_arr m c w).symm
/-- and with the entry contents at every other buffer. -/
theorem hrest1 (c : Dev nD) : ∀ b, b ∉ Finset.univ.image (Pipeline.arrRef spec1) → X1 m c b = E1 m c b :=
  fun b hb => W6_of_ne m c b fun w e => hb (Finset.mem_image.mpr ⟨w, Finset.mem_univ _, e⟩)

/-! ## The proof data of both regions, and what a core holds between two pieces -/

/-- No region prefetches a table: the admissible table contents are the trivial ones. -/
abbrev adm : (p : Fin 2) → (pcfgs (F := Ideal) p).Adm := fun p => (cfgs p).toPCfg_adm
/-- Each region's proof data, taken at the contents the region is entered with: region 0 after the three host
    stretches, region 1 after the stretch between the regions. -/
def pdats : (p : Fin 2) → (c : Dev nD) → Dat τ (Elt Ideal) Unit ℕ (UR sig nD τ) ℕ (Pipeline.pin (pcfgs (F := Ideal)) adm p) c
  | ⟨0, _⟩ => fun c => dat0 (E0 m) c
  | ⟨1, _⟩ => fun c => dat1 (E1 m) c
/-- The bodies are run in their one printed form. -/
abbrev 𝒱₀ : Variants := Variants.none
/-- No core waits on another: no pair of cores is assigned a level. -/
abbrev L : GSem nD τ sig → Finset Unit := fun _ => ∅
abbrev lv : GSem nD τ sig → Unit → ℕ := fun _ _ => 0
/-- Beside its buffers a core carries, through every piece, its random-generator register at some state and the
    record that it owes no other core anything. -/
abbrev R (c : Dev nD) : sProp 𝕄 := iprop((∃ r, prngReg c r) ∗ ∃ W, owes (c : Thread nD τ) (0 : CellTallies nD τ sig Unit) W)
/-- A stretch of host operations as a step: entered with every unscoped buffer at the contents `W`, left with them at
    what the operations compute from `W`; the register and the owing record ride along untouched. -/
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- Every unscoped TensorCore buffer is among those a core holds between two pieces. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds at the very end, apart from owing nothing: every unscoped buffer at the contents region 1 leaves,
    and its register at some state. -/
abbrev Tₙ (c : Dev nD) : sProp 𝕄 := iprop(StableHlo.held (c : Thread nD τ) (Pipeline.ucRefs τ sig) (W6 m c) ∗ ∃ r, prngReg c r)

/-! ## The two regions as steps -/

set_option backward.isDefEq.respectTransparency.types false in
/-- Region 0 as a step: entered with every unscoped buffer at the contents the three host stretches leave, left with
    them at `W4`. On entry the four windows' arrays are taken out of the unscoped buffers and the rest set aside; the
    register goes into the region's invariant and comes back; on exit the arrays, now at what the write-backs
    accumulated, rejoin the rest. Nothing is owed throughout, and the kernel has no semaphore of its own. -/
def reg0 : Pipeline.RegionSeg (pcfgs (F := Ideal)) adm (pdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (E0 m) c
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := Ideal)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a step: entered with every unscoped buffer at the contents the host stretch between the regions leaves,
    left with them at `W6`, which is where @main ends. The same exchange as for region 0: arrays out and back, the
    register into the invariant and back, nothing owed. -/
def reg1 : Pipeline.RegionSeg (pcfgs (F := Ideal)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (E1 m) c
  hwaits := Pipeline.hwaits_of_owed_zero _ _ _ _ L lv 1 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := Ideal)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its six pieces, and the run -/

/-- @main's pieces in order, each a step from the contents before it to the contents after it: the three host stretches
    from the launch memory, region 0, the host stretch from region 0's exit contents, region 1. -/
abbrev segs : List (Pipeline.Seg (pcfgs (F := Ideal)) adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .region (reg0 m),
    .host (hseg hostOps1 hostOps1_sub hostOps1_fresh (W4 m)),
    .region (reg1 m) ]
/-- @main is the pieces run one after another. -/
theorem main_run (c : Dev nD) : main (F := Ideal) c = Pipeline.Seg.run (segs m) := (main_chain c).trans (by chain_rfl)

set_option backward.isDefEq.respectTransparency.types false in
/-- THE RUN. From any memory `m` with every counter at zero and any generator registers, every weakly fair execution of
    @main on the TensorCores terminates without a fault, and in every final state each unscoped TensorCore buffer holds
    the contents region 1 leaves (`W6`): the launch memory folded through the three host stretches, region 0, the host
    stretch between the regions, and region 1. -/
theorem run_main (m : (ℓ : Loc nD τ sig) → Buf (Elt Ideal) ℓ) (ρ : Dev nD → PrngReg) :
    θ_run defs (onTc (τ := τ) (main (F := Ideal))) ⟨m, fun _ => 0, ρ⟩
      (fun r => ∀ c : Dev nD, ∀ b ∈ Pipeline.ucRefs τ sig, r.2.mem (((c : Thread nD τ)).1, b) = W6 m c b) :=
  Pipeline.θ_run_regions_kit (pcfgs (F := Ideal)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun _ h => h)

end Cert.KernelIdeal.Hand

end
-- ==== Proof.IdealCover.lean ====
/-
  The result arrays after each region: the 25 row blocks cover the 100000 rows, and each block written back is its block of one whole-array function, so the array ends holding that function.
-/
import proofs.«161486_j65274912964781_1_alg».proof.Proof.IdealData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

local notation "𝕄" => MT nD τ sig Unit (Elt Ideal) ℕ (UR sig nD τ) ℕ

/-! ## Region 0: the result's blocks -/

/-- The result window's index maps over the 25 points: point `t`'s block starts at row `4096 · t` and holds
    `min 4096 (100000 − 4096 · t)` rows of the array (4096, but 1696 at the last point); it spans all 64 columns. -/
theorem idx_facts0 : ∀ t : Fin cfg0.N, win0_3.index t 0 = t.val
    ∧ win0_3.xsize (grid0.coords t) 0 = min 4096 (100000 - 4096 * t.val)
    ∧ win0_3.index t 1 * win0_3.size 1 = 0
    ∧ win0_3.xsize (grid0.coords t) 1 = 64 :=
  (by decide +kernel : ∀ t : Fin grid0.N, _)

/-- What point `t` writes back is its block of `G16`: the rows inside the array of the staging buffer, which holds
    that block there whatever fills the rows past the array's end. -/
theorem flushed0_3 (V : Vals) (c : Dev nD) (t : Fin cfg0.N) :
    (dat0 V c).flushed 3 t = ((cfg0.win 3).blk t).view.read (Elt Ideal) (G16 V c) := by
  show (cfg0.win 3).cut (grid0.coords t) ((dat0 V c).after 3 t) = _
  rw [after0_3]
  exact win0_3.cut_fill _ _ _

/-- An entry of the array is in point `t`'s block iff its row is among the block's rows inside the array (every
    column is: the block spans the 64 columns). -/
theorem mem_blk0 (t : Fin cfg0.N) (i : S100000x64.Idx) :
    i ∈ ((cfg0.win 3).blk t).view.set
      ↔ t.val * 4096 ≤ (i 0).val ∧ (i 0).val < t.val * 4096 + min 4096 (100000 - 4096 * t.val) := by
  show i ∈ ((View.whole main_v16).slice (win0_3.rect t)).set ↔ _
  rw [View.set_slice_whole, Rect.mem_set_unit]
  obtain ⟨e0, e1, e2, e3⟩ := idx_facts0 t
  have h1 : (i 1 : Nat) < 64 := (i 1).isLt
  constructor
  · intro h
    have h0 : win0_3.index t 0 * win0_3.size 0 ≤ (i 0 : Nat)
        ∧ (i 0 : Nat) < win0_3.index t 0 * win0_3.size 0 + win0_3.xsize (grid0.coords t) 0 := h 0
    rw [e0, e1] at h0
    exact h0
  · intro h a
    match a with
    | ⟨0, _⟩ =>
      change win0_3.index t 0 * win0_3.size 0 ≤ (i 0 : Nat)
        ∧ (i 0 : Nat) < win0_3.index t 0 * win0_3.size 0 + win0_3.xsize (grid0.coords t) 0
      rw [e0, e1]; exact h
    | ⟨1, _⟩ =>
      change win0_3.index t 1 * win0_3.size 1 ≤ (i 1 : Nat)
        ∧ (i 1 : Nat) < win0_3.index t 1 * win0_3.size 1 + win0_3.xsize (grid0.coords t) 1
      rw [e2, e3]; omega

/-- The blocks cover the array: row `r < 100000` lies in the block of point `⌊r / 4096⌋ < 25`, since
    `4096 · ⌊r / 4096⌋ ≤ r < 4096 · ⌊r / 4096⌋ + 4096` and `r < 100000`. -/
theorem cover0 (i : S100000x64.Idx) :
    ∃ t : Fin cfg0.N, (cfg0.win 3).flush t = true ∧ i ∈ ((cfg0.win 3).blk t).view.set := by
  have hi : (i 0).val < 100000 := (i 0).isLt
  have hq : (i 0).val / 4096 < 25 := by omega
  refine ⟨⟨(i 0).val / 4096, hq⟩, flush0_3 _, ?_⟩
  rw [mem_blk0]
  show (i 0).val / 4096 * 4096 ≤ (i 0).val
    ∧ (i 0).val < (i 0).val / 4096 * 4096 + min 4096 (100000 - 4096 * ((i 0).val / 4096))
  omega

/-- After region 0 its result array holds `G16`: every row of x·W times the row's scale. -/
theorem arrAt0_3 (V : Vals) (c : Dev nD) : (dat0 V c).arrAt 3 cfg0.N = G16 V c :=
  (dat0 V c).arrAt_eq_of_cover 3 (G16 V c) (fun t _ => flushed0_3 V c t) cover0

/-! ## Region 1: the result's blocks -/

/-- The result window's index maps over the 25 points: point `t`'s block starts at row `4096 · t` and holds
    `min 4096 (100000 − 4096 · t)` rows of the array (4096, but 1696 at the last point); it spans all 64 columns. -/
theorem idx_facts1 : ∀ t : Fin cfg1.N, win1_3.index t 0 = t.val
    ∧ win1_3.xsize (grid1.coords t) 0 = min 4096 (100000 - 4096 * t.val)
    ∧ win1_3.index t 1 * win1_3.size 1 = 0
    ∧ win1_3.xsize (grid1.coords t) 1 = 64 :=
  (by decide +kernel : ∀ t : Fin grid1.N, _)

/-- What point `t` writes back is its block of `G28`: the rows inside the array of the staging buffer, which holds
    that block there whatever fills the rows past the array's end. -/
theorem flushed1_3 (V : Vals) (c : Dev nD) (t : Fin cfg1.N) :
    (dat1 V c).flushed 3 t = ((cfg1.win 3).blk t).view.read (Elt Ideal) (G28 V c) := by
  show (cfg1.win 3).cut (grid1.coords t) ((dat1 V c).after 3 t) = _
  rw [after1_3]
  exact win1_3.cut_fill _ _ _

/-- An entry of the array is in point `t`'s block iff its row is among the block's rows inside the array (every
    column is: the block spans the 64 columns). -/
theorem mem_blk1 (t : Fin cfg1.N) (i : S100000x64.Idx) :
    i ∈ ((cfg1.win 3).blk t).view.set
      ↔ t.val * 4096 ≤ (i 0).val ∧ (i 0).val < t.val * 4096 + min 4096 (100000 - 4096 * t.val) := by
  show i ∈ ((View.whole main_v28).slice (win1_3.rect t)).set ↔ _
  rw [View.set_slice_whole, Rect.mem_set_unit]
  obtain ⟨e0, e1, e2, e3⟩ := idx_facts1 t
  have h1 : (i 1 : Nat) < 64 := (i 1).isLt
  constructor
  · intro h
    have h0 : win1_3.index t 0 * win1_3.size 0 ≤ (i 0 : Nat)
        ∧ (i 0 : Nat) < win1_3.index t 0 * win1_3.size 0 + win1_3.xsize (grid1.coords t) 0 := h 0
    rw [e0, e1] at h0
    exact h0
  · intro h a
    match a with
    | ⟨0, _⟩ =>
      change win1_3.index t 0 * win1_3.size 0 ≤ (i 0 : Nat)
        ∧ (i 0 : Nat) < win1_3.index t 0 * win1_3.size 0 + win1_3.xsize (grid1.coords t) 0
      rw [e0, e1]; exact h
    | ⟨1, _⟩ =>
      change win1_3.index t 1 * win1_3.size 1 ≤ (i 1 : Nat)
        ∧ (i 1 : Nat) < win1_3.index t 1 * win1_3.size 1 + win1_3.xsize (grid1.coords t) 1
      rw [e2, e3]; omega

/-- The blocks cover the array: row `r < 100000` lies in the block of point `⌊r / 4096⌋ < 25`, since
    `4096 · ⌊r / 4096⌋ ≤ r < 4096 · ⌊r / 4096⌋ + 4096` and `r < 100000`. -/
theorem cover1 (i : S100000x64.Idx) :
    ∃ t : Fin cfg1.N, (cfg1.win 3).flush t = true ∧ i ∈ ((cfg1.win 3).blk t).view.set := by
  have hi : (i 0).val < 100000 := (i 0).isLt
  have hq : (i 0).val / 4096 < 25 := by omega
  refine ⟨⟨(i 0).val / 4096, hq⟩, flush1_3 _, ?_⟩
  rw [mem_blk1]
  show (i 0).val / 4096 * 4096 ≤ (i 0).val
    ∧ (i 0).val < (i 0).val / 4096 * 4096 + min 4096 (100000 - 4096 * ((i 0).val / 4096))
  omega

/-- After region 1 its result array holds `G28`. -/
theorem arrAt1_3 (V : Vals) (c : Dev nD) : (dat1 V c).arrAt 3 cfg1.N = G28 V c :=
  (dat1 V c).arrAt_eq_of_cover 3 (G28 V c) (fun t _ => flushed1_3 V c t) cover1

/-! ## The input windows -/

/-- An input window's array is never written: after the region it holds what it held. -/
theorem arrAt0_in (V : Vals) (c : Dev nD) (w : Fin cfg0.W) (hw : w ≠ 3) : (dat0 V c).arrAt w cfg0.N = V c (Pipeline.arrRef spec0 w) := by
  match w, hw with
  | ⟨0, _⟩, _ => exact ((dat0 V c).arrAt_in (0 : Fin 4) rfl _).trans (A_eq0 V c 0)
  | ⟨1, _⟩, _ => exact ((dat0 V c).arrAt_in (1 : Fin 4) rfl _).trans (A_eq0 V c 1)
  | ⟨2, _⟩, _ => exact ((dat0 V c).arrAt_in (2 : Fin 4) rfl _).trans (A_eq0 V c 2)
  | ⟨3, _⟩, h => exact absurd rfl h
theorem arrAt1_in (V : Vals) (c : Dev nD) (w : Fin cfg1.W) (hw : w ≠ 3) : (dat1 V c).arrAt w cfg1.N = V c (Pipeline.arrRef spec1 w) := by
  match w, hw with
  | ⟨0, _⟩, _ => exact ((dat1 V c).arrAt_in (0 : Fin 4) rfl _).trans (A_eq1 V c 0)
  | ⟨1, _⟩, _ => exact ((dat1 V c).arrAt_in (1 : Fin 4) rfl _).trans (A_eq1 V c 1)
  | ⟨2, _⟩, _ => exact ((dat1 V c).arrAt_in (2 : Fin 4) rfl _).trans (A_eq1 V c 2)
  | ⟨3, _⟩, h => exact absurd rfl h

end Cert.KernelIdeal.Hand

end
-- ==== Proof.KernelForm.lean ====
/-
  The kernel's arrangement of the graph convolution, stated over the reference's own stages: scale each row of x·W by the
  row's scale before the rows are gathered by source, add the gathered rows up by target, scale row i of the sum by its
  scale once, add the bias.
-/
import proofs.«161486_j65274912964781_1_alg».proof.Proof.RefRead

noncomputable section

namespace Cert.ReferenceIdeal.RefValue

open Cert.ReferenceIdeal Cert.ReferenceIdeal.Gen Cert.ReferenceIdeal.Read Idealize.ShloMosaic
open scoped BigOperators

/-- Row `j 0` of a 100000 × 64 entry, as an index of the length-100000 scale vector. -/
abbrev rowOf (j : S100000x64.Idx) : S100000.Idx := fun a => match a with | ⟨0, _⟩ => ⟨(j 0).val, (j 0).isLt⟩
/-- Column `j 1`, as an index of the length-64 bias. -/
abbrev colOf (j : S100000x64.Idx) : S64.Idx := fun a => match a with | ⟨0, _⟩ => ⟨(j 1).val, (j 1).isLt⟩

/-- The transformed features with each row already scaled: `(x·W)[r, q] · dinv[r]`. -/
def hsR (x0 : (⟨S100000x256, .f32⟩ : BufTy).Contents (Elt Ideal)) (x1 : (⟨S2x1600000, .i32⟩ : BufTy).Contents (Elt Ideal))
    (x2 : (⟨S256x64, .f32⟩ : BufTy).Contents (Elt Ideal)) : (⟨S100000x64, .f32⟩ : BufTy).Contents (Elt Ideal) :=
  fun j => val_main_v30 (F := Ideal) x0 x2 j * val_main_v14 (F := Ideal) x1 (rowOf j)

/-- The kernel's arrangement: gather the scaled rows by source, scatter-add them by target, scale row `i` of the sum by
    `dinv[i]` once, add the bias. -/
def kernelForm (x0 : (⟨S100000x256, .f32⟩ : BufTy).Contents (Elt Ideal)) (x1 : (⟨S2x1600000, .i32⟩ : BufTy).Contents (Elt Ideal))
    (x2 : (⟨S256x64, .f32⟩ : BufTy).Contents (Elt Ideal)) (x3 : (⟨S64, .f32⟩ : BufTy).Contents (Elt Ideal)) :
    (⟨S100000x64, .f32⟩ : BufTy).Contents (Elt Ideal) :=
  fun i =>
    (Host.scatterAdd (F := Ideal) (φ := .f32) scatter_S100000x64_S1700000x1_S1700000x64_1_0_0_1 (val_main_v41 (F := Ideal)) (val_main_v42 (F := Ideal) x1)
        (Host.gather gather_S100000x64_S1700000x1_S1700000x64_1_0_n_n_0_1_164 (hsR x0 x1 x2) (val_main_v36 (F := Ideal) x1)
          : (⟨S1700000x64, .f32⟩ : BufTy).Contents (Elt Ideal)) : (⟨S100000x64, .f32⟩ : BufTy).Contents (Elt Ideal)) i
      * val_main_v14 (F := Ideal) x1 (rowOf i) + x3 (colOf i)

end Cert.ReferenceIdeal.RefValue

end
-- ==== Proof.IdealValue.lean ====
/-
  The idealized kernel's result as one function of the argument arrays: the fold of @main's host stretches and the two regions' arrays, read back to the launch memory, is the kernel's arrangement of the graph convolution over the reference's own stages.

  The chain. Both programs compute the edge lists, the degrees and the row scales dinv by the same operations of the edge
  array, so each of the kernel's host stages is the reference's stage. The first region leaves hs[r, q] = (x·W)[r, q] · dinv[r];
  the stretch between the regions gathers the rows of hs by source and adds them up by target; the second region leaves
  agg[r, q] · dinv[r] + b[q]. No stretch and no region writes an argument.
-/
import proofs.«161486_j65274912964781_1_alg».proof.Proof.IdealData
import proofs.«161486_j65274912964781_1_alg».proof.Proof.IdealCover
import proofs.«161486_j65274912964781_1_alg».proof.Proof.KernelForm
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

local notation "𝕄" => MT nD τ sig Unit (Elt Ideal) ℕ (UR sig nD τ) ℕ

namespace HostFold

/-! ## The host stretches, for any float family

Both programs compute the edge lists, the degrees and the row scales by the same operations, so each stage of the
kernel's host stretches is the reference's stage of the same name, as a function of the edge array. -/

section Host
variable {F : FTy → Type} [FloatOps F]
variable (m : (ℓ : Loc nD τ sig) → Buf (Elt F) ℓ)

/-- The targets with the self loops appended. -/
theorem V1_v6 (c : Dev nD) :
    Gen.V1 m c (Proc.devRef .tc main_v6) = Cert.ReferenceIdeal.Read.val_main_v6 (F := F) (m ((c : Thread nD τ).loc main_arg1)) := by
  show StableHlo.after hostOps0 _ (Proc.devRef .tc main_v6) = _
  after_results
  rfl

/-- The sources with the self loops appended. -/
theorem V1_v3 (c : Dev nD) :
    Gen.V1 m c (Proc.devRef .tc main_v3) = Cert.ReferenceIdeal.Read.val_main_v3 (F := F) (m ((c : Thread nD τ).loc main_arg1)) := by
  show StableHlo.after hostOps0 _ (Proc.devRef .tc main_v3) = _
  after_results
  rfl

/-- Which degrees are positive. -/
theorem V1_v12 (c : Dev nD) :
    Gen.V1 m c (Proc.devRef .tc main_v12) = Cert.ReferenceIdeal.Read.val_main_v12 (F := F) (m ((c : Thread nD τ).loc main_arg1)) := by
  show StableHlo.after hostOps0 _ (Proc.devRef .tc main_v12) = _
  after_results
  rfl

/-- The reciprocal square roots of the degrees. -/
theorem V1_v13 (c : Dev nD) :
    Gen.V1 m c (Proc.devRef .tc main_v13) = Cert.ReferenceIdeal.Read.val_main_v13 (F := F) (m ((c : Thread nD τ).loc main_arg1)) := by
  show StableHlo.after hostOps0 _ (Proc.devRef .tc main_v13) = _
  after_results
  rfl

/-- The zero the scale falls back to. -/
theorem V1_cst2 (c : Dev nD) :
    Gen.V1 m c (Proc.devRef .tc main_cst_2) = Cert.ReferenceIdeal.Read.val_main_cst_2 (F := F) := by
  show StableHlo.after hostOps0 _ (Proc.devRef .tc main_cst_2) = _
  after_results
  rfl

/-- The inlined select, from any contents. -/
theorem host01_v14 (W : Valuation τ sig (Elt F)) :
    StableHlo.after (hostOps0_1 (F := F)) W (Proc.devRef .tc main_v14)
      = (select (W (Proc.devRef .tc main_v12)) (W (Proc.devRef .tc main_v13))
          (broadcastInDim S100000 ![] bcast_S_S100000 (W (Proc.devRef .tc main_cst_2))) : (⟨S100000, .f32⟩ : BufTy).Contents (Elt F)) := by
  after_results
  rfl

/-- The reshape of the scales to a column, from any contents. -/
theorem host02_v15 (W : Valuation τ sig (Elt F)) :
    StableHlo.after (hostOps0_2 (F := F)) W (Proc.devRef .tc main_v15)
      = (shapeCast S100000x1 (W (Proc.devRef .tc main_v14)) shapeCasts_S100000_S100000x1 : (⟨S100000x1, .f32⟩ : BufTy).Contents (Elt F)) := by
  after_results
  rfl

/-- The row scales: the reciprocal square root of a positive degree, else zero. -/
theorem V2_v14 (c : Dev nD) :
    Gen.V2 m c (Proc.devRef .tc main_v14) = Cert.ReferenceIdeal.Read.val_main_v14 (F := F) (m ((c : Thread nD τ).loc main_arg1)) := by
  refine (host01_v14 (Gen.V1 m c)).trans ?_
  rw [V1_v12, V1_v13, V1_cst2]
  rfl

/-- The column of row scales is the reshape of the reference's scale vector. -/
theorem V3_v15 (c : Dev nD) :
    Gen.V3 m c (Proc.devRef .tc main_v15)
      = (shapeCast S100000x1 (Cert.ReferenceIdeal.Read.val_main_v14 (F := F) (m ((c : Thread nD τ).loc main_arg1))) shapeCasts_S100000_S100000x1
          : (⟨S100000x1, .f32⟩ : BufTy).Contents (Elt F)) := by
  refine (host02_v15 (Gen.V2 m c)).trans ?_
  rw [V2_v14]

/-- The stretch between the regions, from any contents whose edge arrays are the reference's: gather the rows of the first
    region's result by normalised source, scatter-add them by target into zeros. -/
theorem host1_v26 (W : Valuation τ sig (Elt F)) (x1 : (⟨S2x1600000, .i32⟩ : BufTy).Contents (Elt F))
    (h3 : W (Proc.devRef .tc main_v3) = Cert.ReferenceIdeal.Read.val_main_v3 (F := F) x1)
    (h6 : W (Proc.devRef .tc main_v6) = Cert.ReferenceIdeal.Read.val_main_v6 (F := F) x1) :
    StableHlo.after (hostOps1 (F := F)) W (Proc.devRef .tc main_v26)
      = (Host.scatterAdd Cert.ReferenceIdeal.scatter_S100000x64_S1700000x1_S1700000x64_1_0_0_1
          (Cert.ReferenceIdeal.Read.val_main_v41 (F := F)) (Cert.ReferenceIdeal.Read.val_main_v42 (F := F) x1)
          (Host.gather Cert.ReferenceIdeal.gather_S100000x64_S1700000x1_S1700000x64_1_0_n_n_0_1_164
            (W (Proc.devRef .tc main_v16)) (Cert.ReferenceIdeal.Read.val_main_v36 (F := F) x1)
            : (⟨S1700000x64, .f32⟩ : BufTy).Contents (Elt F))
          : (⟨S100000x64, .f32⟩ : BufTy).Contents (Elt F)) := by
  after_results
  rw [h3, h6]
  rfl

/-- The bias as a row, from any contents. -/
theorem host1_v27 (W : Valuation τ sig (Elt F)) :
    StableHlo.after (hostOps1 (F := F)) W (Proc.devRef .tc main_v27)
      = (shapeCast S1x64 (W (Proc.devRef .tc main_arg3)) shapeCasts_S64_S1x64 : (⟨S1x64, .f32⟩ : BufTy).Contents (Elt F)) := by
  after_results
  rfl

/-- A buffer that no host stretch before the first region writes holds its launch contents at the region's entry. -/
theorem V3_arg (c : Dev nD) (r : Ref sig .tc) (h0 : r ∉ hostOps0_W) (h1 : r ∉ hostOps0_1_W) (h2 : r ∉ hostOps0_2_W) :
    Gen.V3 m c (Proc.devRef .tc r) = m ((c : Thread nD τ).loc r) :=
  (Gen.V3_of m c r h2).trans <| (Gen.V2_of m c r h1).trans <| (Gen.V1_of m c r h0).trans rfl

/-- The edge arrays reach the first region as the first stretch left them. -/
theorem V3_v3 (c : Dev nD) :
    Gen.V3 m c (Proc.devRef .tc main_v3) = Cert.ReferenceIdeal.Read.val_main_v3 (F := F) (m ((c : Thread nD τ).loc main_arg1)) :=
  (Gen.V3_of m c main_v3 (by decide)).trans <| (Gen.V2_of m c main_v3 (by decide)).trans (V1_v3 m c)
theorem V3_v6 (c : Dev nD) :
    Gen.V3 m c (Proc.devRef .tc main_v6) = Cert.ReferenceIdeal.Read.val_main_v6 (F := F) (m ((c : Thread nD τ).loc main_arg1)) :=
  (Gen.V3_of m c main_v6 (by decide)).trans <| (Gen.V2_of m c main_v6 (by decide)).trans (V1_v6 m c)

end Host

/-! ## The fold through the two regions -/

variable (m : (ℓ : Loc nD τ sig) → Buf (Elt Ideal) ℓ)

theorem W4_arr (c : Dev nD) (w : Fin cfg0.W) :
    W4 m c (Proc.devRef .tc (Pipeline.arrRef spec0 w)) = (dat0 (E0 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = Gen.V3 m c (Proc.devRef .tc b) := by
  unfold W4; exact Pipeline.withArrays_of_ne spec0 c _ _ b hb
theorem W4_in (c : Dev nD) (w : Fin cfg0.W) (hw : w ≠ 3) :
    W4 m c (Proc.devRef .tc (Pipeline.arrRef spec0 w)) = Gen.V3 m c (Proc.devRef .tc (Pipeline.arrRef spec0 w)) :=
  (W4_arr m c w).trans (arrAt0_in (E0 m) c w hw)
theorem W5_of (c : Dev nD) (r : Ref sig .tc) (h : r ∉ hostOps1_W) :
    W5 m c (Proc.devRef .tc r) = W4 m c (Proc.devRef .tc r) :=
  StableHlo.after_of_writes_sub hostOps1 _ hostOps1_writes h
theorem W6_arr (c : Dev nD) (w : Fin cfg1.W) :
    W6 m c (Proc.devRef .tc (Pipeline.arrRef spec1 w)) = (dat1 (E1 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb

theorem W4_v16 (c : Dev nD) : W4 m c (Proc.devRef .tc main_v16) = G16 (E0 m) c :=
  (W4_arr m c 3).trans (arrAt0_3 (E0 m) c)
theorem W6_v28 (c : Dev nD) : W6 m c (Proc.devRef .tc main_v28) = G28 (E1 m) c :=
  (W6_arr m c 3).trans (arrAt1_3 (E1 m) c)
theorem W4_v15 (c : Dev nD) : W4 m c (Proc.devRef .tc main_v15) = Gen.V3 m c (Proc.devRef .tc main_v15) :=
  W4_in m c 2 (by decide)
theorem W4_arg0 (c : Dev nD) : W4 m c (Proc.devRef .tc main_arg0) = m ((c : Thread nD τ).loc main_arg0) :=
  (W4_in m c 0 (by decide)).trans (V3_arg m c main_arg0 (by decide) (by decide) (by decide))
theorem W4_arg2 (c : Dev nD) : W4 m c (Proc.devRef .tc main_arg2) = m ((c : Thread nD τ).loc main_arg2) :=
  (W4_in m c 1 (by decide)).trans (V3_arg m c main_arg2 (by decide) (by decide) (by decide))
theorem W4_arg1 (c : Dev nD) : W4 m c (Proc.devRef .tc main_arg1) = m ((c : Thread nD τ).loc main_arg1) :=
  (W4_of_ne m c main_arg1 (by decide)).trans (V3_arg m c main_arg1 (by decide) (by decide) (by decide))
theorem W4_arg3 (c : Dev nD) : W4 m c (Proc.devRef .tc main_arg3) = m ((c : Thread nD τ).loc main_arg3) :=
  (W4_of_ne m c main_arg3 (by decide)).trans (V3_arg m c main_arg3 (by decide) (by decide) (by decide))

/-! ## The first region's result is the reference's scaled features -/

/-- A column vector that is the reshape of a vector, read at row `r`, is the vector at `r`. -/
theorem col_apply {α : Type} (y : S100000.Idx → α) (j : S100000x64.Idx) :
    shapeCast S100000x1 y shapeCasts_S100000_S100000x1 (dx j) = y (Cert.ReferenceIdeal.RefValue.rowOf j) :=
  shapeCast_apply y shapeCasts_S100000_S100000x1 (dx j) (Cert.ReferenceIdeal.RefValue.rowOf j)
    (by rewrite [Shape.rowMajor_val_one, Shape.rowMajor_val_two]; show (j 0).val = (j 0).val * 1 + 0; omega)

/-- A row vector that is the reshape of a vector, read at column `q`, is the vector at `q`. -/
theorem row_apply {α : Type} (y : S64.Idx → α) (j : S100000x64.Idx) :
    shapeCast S1x64 y shapeCasts_S64_S1x64 (bx j) = y (Cert.ReferenceIdeal.RefValue.colOf j) :=
  shapeCast_apply y shapeCasts_S64_S1x64 (bx j) (Cert.ReferenceIdeal.RefValue.colOf j)
    (by rewrite [Shape.rowMajor_val_one, Shape.rowMajor_val_two]; show (j 1).val = 0 * 64 + (j 1).val; omega)

/-- The arrays the first region reads, as functions of the arguments. -/
theorem xArr0 (c : Dev nD) : xArr (E0 m) c = m ((c : Thread nD τ).loc main_arg0) :=
  V3_arg (F := Ideal) m c main_arg0 (by decide) (by decide) (by decide)
theorem wArr0 (c : Dev nD) : wArr (E0 m) c = m ((c : Thread nD τ).loc main_arg2) :=
  V3_arg (F := Ideal) m c main_arg2 (by decide) (by decide) (by decide)
theorem dArr0 (c : Dev nD) (j : S100000x64.Idx) :
    dArr (E0 m) c (dx j)
      = Cert.ReferenceIdeal.Read.val_main_v14 (F := Ideal) (m ((c : Thread nD τ).loc main_arg1)) (Cert.ReferenceIdeal.RefValue.rowOf j) := by
  show (Gen.V3 m c (Proc.devRef .tc main_v15) : S100000x1.Idx → EReal) (dx j) = _
  rw [V3_v15 (F := Ideal) m c]
  exact col_apply _ j

theorem G16_eq (c : Dev nD) :
    G16 (E0 m) c = Cert.ReferenceIdeal.RefValue.hsR (m ((c : Thread nD τ).loc main_arg0)) (m ((c : Thread nD τ).loc main_arg1))
      (m ((c : Thread nD τ).loc main_arg2)) := by
  funext j
  unfold G16 Cert.ReferenceIdeal.RefValue.hsR
  rw [Cert.ReferenceIdeal.Read.val_main_v30_apply, dArr0 m c j, xArr0 m c, wArr0 m c]
  rfl

/-! ## The second region's operands, and the result -/

/-- The aggregate: the first region's scaled rows gathered by source and added up by target. -/
theorem aArr1 (c : Dev nD) :
    aArr (E1 m) c
      = (Host.scatterAdd (F := Ideal) (φ := .f32) Cert.ReferenceIdeal.scatter_S100000x64_S1700000x1_S1700000x64_1_0_0_1
          (Cert.ReferenceIdeal.Read.val_main_v41 (F := Ideal)) (Cert.ReferenceIdeal.Read.val_main_v42 (F := Ideal) (m ((c : Thread nD τ).loc main_arg1)))
          (Host.gather Cert.ReferenceIdeal.gather_S100000x64_S1700000x1_S1700000x64_1_0_n_n_0_1_164
            (Cert.ReferenceIdeal.RefValue.hsR (m ((c : Thread nD τ).loc main_arg0)) (m ((c : Thread nD τ).loc main_arg1)) (m ((c : Thread nD τ).loc main_arg2)))
            (Cert.ReferenceIdeal.Read.val_main_v36 (F := Ideal) (m ((c : Thread nD τ).loc main_arg1)))
            : (⟨S1700000x64, .f32⟩ : BufTy).Contents (Elt Ideal))
          : (⟨S100000x64, .f32⟩ : BufTy).Contents (Elt Ideal)) := by
  refine (host1_v26 (F := Ideal) (W4 m c) (m ((c : Thread nD τ).loc main_arg1))
    ((W4_of_ne m c main_v3 (by decide)).trans (V3_v3 (F := Ideal) m c))
    ((W4_of_ne m c main_v6 (by decide)).trans (V3_v6 (F := Ideal) m c))).trans ?_
  rw [W4_v16 m c, G16_eq m c]

/-- The scale column is the one the first region read. -/
theorem dArr1 (c : Dev nD) (j : S100000x64.Idx) :
    dArr (E1 m) c (dx j)
      = Cert.ReferenceIdeal.Read.val_main_v14 (F := Ideal) (m ((c : Thread nD τ).loc main_arg1)) (Cert.ReferenceIdeal.RefValue.rowOf j) := by
  have e : dArr (E1 m) c = dArr (E0 m) c := (W5_of m c main_v15 (by decide)).trans (W4_v15 m c)
  rw [e]
  exact dArr0 m c j

/-- The bias row read at a column is the bias. -/
theorem bArr1 (c : Dev nD) (j : S100000x64.Idx) :
    bArr (E1 m) c (bx j) = (m ((c : Thread nD τ).loc main_arg3) : S64.Idx → EReal) (Cert.ReferenceIdeal.RefValue.colOf j) := by
  have e : bArr (E1 m) c = shapeCast S1x64 (m ((c : Thread nD τ).loc main_arg3) : S64.Idx → EReal) shapeCasts_S64_S1x64 := by
    refine (host1_v27 (F := Ideal) (W4 m c)).trans ?_
    rw [W4_arg3 m c]
  rw [e]
  exact row_apply _ j

end HostFold

open HostFold

variable (m : (ℓ : Loc nD τ sig) → Buf (Elt Ideal) ℓ)

/-- The result buffer at the end of @main is the kernel's arrangement, applied to the launch contents of the four arguments. -/
theorem value28 (c : Dev nD) :
    W6 m c (Proc.devRef .tc main_v28)
      = Cert.ReferenceIdeal.RefValue.kernelForm (m ((c : Thread nD τ).loc main_arg0)) (m ((c : Thread nD τ).loc main_arg1))
          (m ((c : Thread nD τ).loc main_arg2)) (m ((c : Thread nD τ).loc main_arg3)) := by
  refine (W6_v28 m c).trans ?_
  funext i
  unfold G28 Cert.ReferenceIdeal.RefValue.kernelForm
  rw [aArr1 m c, dArr1 m c i, bArr1 m c i]

/-- No host stretch and no region writes an argument: each reaches the end as launched. -/
theorem W6_main_arg0 (c : Dev nD) : W6 m c (Proc.devRef .tc main_arg0) = m ((c : Thread nD τ).loc main_arg0) :=
  (W6_of_ne m c main_arg0 (by decide)).trans <| (W5_of m c main_arg0 (by decide)).trans (W4_arg0 m c)
theorem W6_main_arg1 (c : Dev nD) : W6 m c (Proc.devRef .tc main_arg1) = m ((c : Thread nD τ).loc main_arg1) :=
  (W6_of_ne m c main_arg1 (by decide)).trans <| (W5_of m c main_arg1 (by decide)).trans (W4_arg1 m c)
theorem W6_main_arg2 (c : Dev nD) : W6 m c (Proc.devRef .tc main_arg2) = m ((c : Thread nD τ).loc main_arg2) :=
  (W6_of_ne m c main_arg2 (by decide)).trans <| (W5_of m c main_arg2 (by decide)).trans (W4_arg2 m c)
theorem W6_main_arg3 (c : Dev nD) : W6 m c (Proc.devRef .tc main_arg3) = m ((c : Thread nD τ).loc main_arg3) :=
  (W6_of_ne m c main_arg3 (by decide)).trans <| (W5_of m c main_arg3 (by decide)).trans (W4_arg3 m c)

end Cert.KernelIdeal.Hand

end
-- ==== Proof.DinvReal.lean ====
/-
  The row scale of the graph convolution is a non-negative real number.

  The degree of a node is a count: the zero word plus one for every edge (self loops included) whose target, read as a
  signed word, is that node. The scale is the reciprocal square root of the degree where the degree is positive and
  zero elsewhere; on the extended reals a count is a non-negative real, so the scale is one too (never an infinity).
-/
import proofs.«161486_j65274912964781_1_alg».proof.Proof.RefRead
import Idealize.ShloMosaic.PureOps.Ideal.Laws

noncomputable section

namespace Cert.ReferenceIdeal.RefValue

open Cert.ReferenceIdeal Cert.ReferenceIdeal.Gen Cert.ReferenceIdeal.Read Idealize.ShloMosaic
open scoped BigOperators

/-- The single-precision pattern of one denotes the real number one. -/
private theorem ofBits_one_f32 : Ideal.ofBits .f32 0x3F800000#32 = ((1 : ℝ) : EReal) := by
  simp [Ideal.ofBits, Ideal.ieee, -EReal.coe_mul]; norm_num

/-- The all-zero single-precision pattern denotes the real number zero. -/
private theorem ofBits_zero_f32' : Ideal.ofBits .f32 0x00000000#32 = ((0 : ℝ) : EReal) := by
  simp [Ideal.ofBits, Ideal.ieee]

/-- A sum of ones over a finite set is the set's cardinality, as a real inside the extended reals. -/
private theorem sum_one_coe {ι : Type} (s : Finset ι) (f : ι → EReal) (hf : ∀ j, f j = ((1 : ℝ) : EReal)) :
    ∑ j ∈ s, f j = (((s.card : ℕ) : ℝ) : EReal) := by
  classical
  induction s using Finset.induction_on with
  | empty => simp
  | insert a s ha ih =>
    rw [Finset.sum_insert ha, ih, hf a, Finset.card_insert_of_notMem ha, ← EReal.coe_add]
    congr 1
    push_cast
    ring

/-- An accumulating scatter of ones onto a zero is a count: the number of updates that land on the element.
    Which updates land there plays no part. -/
private theorem hostScatterAdd_count {s si su : Shape} (d : ScatterDims s si su) {w : Nat} (x : s.Idx → EReal)
    (idx : IVec si w) (upd : su.Idx → EReal) (i : s.Idx) (hx : x i = ((0 : ℝ) : EReal))
    (hu : ∀ j, upd j = ((1 : ℝ) : EReal)) :
    ∃ n : ℕ, Ideal.hostScatterAdd d x idx upd i = ((n : ℝ) : EReal) := by
  refine ⟨(Finset.univ.filter (fun j => d.resultIdx? j idx = some i)).card, ?_⟩
  unfold Ideal.hostScatterAdd
  rw [hx, sum_one_coe _ _ hu, ← EReal.coe_add, zero_add]

/-- The same for the host's scatter operation on exact values. -/
private theorem scatterAdd_count {s si su : Shape} (d : ScatterDims s si su) {w : Nat} (x : FVec Ideal s .f32)
    (idx : IVec si w) (upd : FVec Ideal su .f32) (i : s.Idx) (hx : x i = ((0 : ℝ) : EReal))
    (hu : ∀ j, upd j = ((1 : ℝ) : EReal)) :
    ∃ n : ℕ, Host.scatterAdd d x idx upd i = ((n : ℝ) : EReal) := by
  unfold Host.scatterAdd
  rw [Ideal.hostScatterAdd_def]
  exact hostScatterAdd_count d x idx upd i hx hu

/-- The scatter's operand is zero everywhere. -/
private theorem v8_zero (i : S100000.Idx) : val_main_v8 (F := Ideal) i = ((0 : ℝ) : EReal) := by
  rw [val_main_v8_apply, val_main_cst_0_apply, Ideal.ofBits_def, ofBits_zero_f32']

/-- Every update of the scatter is one. -/
private theorem v7_one (j : S1700000.Idx) : val_main_v7 (F := Ideal) j = ((1 : ℝ) : EReal) := by
  rw [val_main_v7_apply, val_main_cst_apply, Ideal.ofBits_def, ofBits_one_f32]

/-- The degree of a node is a natural number. -/
theorem deg_eq (x1 : (⟨S2x1600000, .i32⟩ : BufTy).Contents (Elt Ideal)) (i : S100000.Idx) :
    ∃ n : ℕ, val_main_v10 (F := Ideal) x1 i = ((n : ℝ) : EReal) := by
  unfold val_main_v10
  exact scatterAdd_count _ _ _ _ i (v8_zero i) v7_one

/-- On exact values a float comparison is the comparison of the linear order. -/
private theorem cmpf_ideal (p : CmpFPredicate) (a b : Ideal .f32) :
    FloatOps.cmpf (F := Ideal) p a b = Ideal.cmp p a b := rfl

/-- Every row's scale is a non-negative real. -/
theorem dinv_real (x1 : (⟨S2x1600000, .i32⟩ : BufTy).Contents (Elt Ideal)) (i : S100000.Idx) :
    ∃ r : ℝ, 0 ≤ r ∧ val_main_v14 (F := Ideal) x1 i = ((r : ℝ) : EReal) := by
  obtain ⟨n, hn⟩ := deg_eq x1 i
  have h0 : val_main_call0_v1 (F := Ideal) i = ((0 : ℝ) : EReal) := by
    rw [val_main_call0_v1_apply, val_main_call0_v0_apply, val_main_cst_2_apply, Ideal.ofBits_def, ofBits_zero_f32']
  have h11 : val_main_v11 (F := Ideal) i = ((0 : ℝ) : EReal) := by
    rw [val_main_v11_apply, val_main_cst_1_apply, Ideal.ofBits_def, ofBits_zero_f32']
  rw [val_main_v14_apply, val_main_v12_apply, val_main_v13_apply, hn, h11, h0, cmpf_ideal,
    Ideal.hostUnary_rsqrt_def]
  rcases Nat.eq_zero_or_pos n with rfl | hpos
  · -- degree zero: the comparison fails and the scale is the zero of the other branch
    refine ⟨0, le_refl _, ?_⟩
    have hc : Ideal.cmp .ogt (((0 : ℕ) : ℝ) : EReal) ((0 : ℝ) : EReal) = 0#1 := by
      simp [Ideal.cmp]
    rw [hc, Scalar.select, if_neg (by decide)]
  · -- positive degree: the comparison holds and the scale is the reciprocal square root of a positive real
    have hr : (0 : ℝ) < (n : ℝ) := Nat.cast_pos.mpr hpos
    refine ⟨(Real.sqrt n)⁻¹, inv_nonneg.mpr (Real.sqrt_nonneg _), ?_⟩
    have hc : Ideal.cmp .ogt ((n : ℝ) : EReal) ((0 : ℝ) : EReal) = 1#1 := by
      simp [Ideal.cmp, hpos]
    rw [hc, Scalar.select, if_pos (by decide), Ideal.rsqrt_coe, if_neg (not_lt.mpr hr.le), if_neg hr.ne']

end Cert.ReferenceIdeal.RefValue

end
-- ==== Proof.Bridge.lean ====
/-
  The reference's graph convolution equals the kernel's arrangement of the same sum, index by index, on the extended reals.

  Reference: out[i, q] = 0 + ∑ over the entries j = (e, q) whose target word, read signed, is the row of i, of
  (x·W)[s(e), q] · (dinv[s(e)] · dinv[t(e)]), plus the bias; s(e) and t(e) are the normalised source and target words
  read signed and clamped into [0, 99999]. Kernel: (0 + ∑ over the same entries of (x·W)[s(e), q] · dinv[s(e)]) · dinv[row i],
  plus the bias.

  Three facts carry the proof. (1) An entry lands at i only if its target word, read signed, IS the row of i, so it lies
  in [0, 100000): it is not negative, normalisation leaves it alone, the clamp does nothing, and dinv[t(e)] = dinv[row i].
  (2) Both gathers of a source row read row min(start, 99999) for the same start word, so the row whose scale the kernel
  multiplies in before the gather is the row the reference's take of the scale vector reads. (3) Multiplication on the
  extended reals is associative, and a finite sum times a NON-NEGATIVE REAL is the sum of the products (the scale is one:
  a reciprocal square root of a count, or zero). No finiteness of x or W is used.
-/
import proofs.«161486_j65274912964781_1_alg».proof.Proof.RefRead
import proofs.«161486_j65274912964781_1_alg».proof.Proof.DinvReal
import proofs.«161486_j65274912964781_1_alg».proof.Proof.KernelForm
import Idealize.ShloMosaic.Lib.ValueIdx
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.Read Idealize.ShloMosaic
open Idealize.ShloMosaic.StableHlo.Predicate
open scoped BigOperators

/-! ## Indices -/

/-- The edge (coordinate 0) of an entry of the [1700000 × 64] messages. -/
abbrev edgeOf (j : S1700000x64.Idx) : Fin 1700000 := ⟨(j 0).val, (j 0).isLt⟩
/-- That edge as an index of the [1700000 × 1] column of scatter (or start) indices. -/
abbrev edgeIx (j : S1700000x64.Idx) : S1700000x1.Idx := ixP (edgeOf j)
/-- That edge as an index of a length-1700000 vector. -/
abbrev edgeI (j : S1700000x64.Idx) : S1700000.Idx := Shape.Idx.ofFin (edgeOf j)

theorem idx42_edge (j : S1700000x64.Idx) : idx_main_v42 (edgeIx j) = edgeI j :=
  funext fun a => Fin.ext (by match a with | ⟨0, _⟩ => rfl)
theorem idx27_edge (j : S1700000x64.Idx) : idx_main_v27 (edgeIx j) = edgeI j :=
  funext fun a => Fin.ext (by match a with | ⟨0, _⟩ => rfl)
theorem idx20_edge (j : S1700000x64.Idx) : idx_main_v20 (edgeIx j) = edgeI j :=
  funext fun a => Fin.ext (by match a with | ⟨0, _⟩ => rfl)
theorem idx38_39_edge (j : S1700000x64.Idx) : idx_main_v38 (idx_main_v39 j) = edgeI j :=
  funext fun a => Fin.ext (by match a with | ⟨0, _⟩ => rfl)

/-! ## The scatter's result index: its row is the target word read signed -/

theorem sc_siIdx (j : S1700000x64.Idx) (c : Fin scatter_S100000x64_S1700000x1_S1700000x64_1_0_0_1.scatterDimsToOperandDims.length) :
    scatter_S100000x64_S1700000x1_S1700000x64_1_0_0_1.siIdx j c = edgeIx j := by
  funext b
  match b with
  | ⟨0, _⟩ =>
    unfold ScatterDims.siIdx
    rw [dif_neg (by show ¬ ((0 : Nat) = 1); exact Nat.zero_ne_one)]
    unfold ScatterDims.siCoord
    apply Fin.ext
    simp only [Fin.val_cast]
    rfl
  | ⟨1, _⟩ =>
    unfold ScatterDims.siIdx
    rw [dif_pos (by rfl)]
    apply Fin.ext
    have hc : c.val < 1 := c.isLt
    show c.val = 0
    omega

theorem sc_start0 {w : Nat} (j : S1700000x64.Idx) (idx : IVec S1700000x1 w) :
    scatter_S100000x64_S1700000x1_S1700000x64_1_0_0_1.start j idx 0 = (idx (edgeIx j)).toInt := by
  unfold ScatterDims.start
  rw [dif_pos (show (0 : Fin S100000x64.rank) ∈ scatter_S100000x64_S1700000x1_S1700000x64_1_0_0_1.scatterDimsToOperandDims by decide), sc_siIdx]

theorem sc_window0 (j : S1700000x64.Idx) :
    scatter_S100000x64_S1700000x1_S1700000x64_1_0_0_1.window j 0 = 0 := by
  unfold ScatterDims.window
  rw [dif_neg (show ¬ (0 : Fin S100000x64.rank) ∈ scatter_S100000x64_S1700000x1_S1700000x64_1_0_0_1.sKept by decide)]

/-- An update entry that lands at i has, as its target word read signed, the row of i. -/
theorem resultIdx_some {w : Nat} (j : S1700000x64.Idx) (idx : IVec S1700000x1 w) (i : S100000x64.Idx)
    (h : scatter_S100000x64_S1700000x1_S1700000x64_1_0_0_1.resultIdx? j idx = some i) :
    (idx (edgeIx j)).toInt = ((i 0).val : Int) := by
  unfold ScatterDims.resultIdx? at h
  split at h
  · next hall =>
    have e := Option.some.inj h
    have hv := congrArg Fin.val (congrFun e 0)
    have hr := (hall 0).1
    rw [sc_start0, sc_window0] at hr
    simp only [sc_start0, sc_window0] at hv
    omega
  · cases h

/-! ## The two gathers read the row min (start read signed) 99999 -/

theorem g2_siIdx (j : S1700000x64.Idx) (c : Fin gather_S100000x64_S1700000x1_S1700000x64_1_0_n_n_0_1_164.startIndexMap.length) :
    gather_S100000x64_S1700000x1_S1700000x64_1_0_n_n_0_1_164.siIdx j c = edgeIx j := by
  funext b
  match b with
  | ⟨0, _⟩ =>
    unfold GatherDims.siIdx
    rw [dif_neg (by show ¬ ((0 : Nat) = 1); exact Nat.zero_ne_one)]
    unfold GatherDims.siCoord
    apply Fin.ext
    simp only [Fin.val_cast]
    rfl
  | ⟨1, _⟩ =>
    unfold GatherDims.siIdx
    rw [dif_pos (by rfl)]
    apply Fin.ext
    have hc : c.val < 1 := c.isLt
    show c.val = 0
    omega

/-- The row the rank-2 gather reads for entry j: the start word of its edge, read signed and clamped. -/
theorem g2_row {w : Nat} (j : S1700000x64.Idx) (idx : IVec S1700000x1 w) :
    ((gather_S100000x64_S1700000x1_S1700000x64_1_0_n_n_0_1_164.operandIdx j idx) 0).val
      = min (idx (edgeIx j)).toInt.toNat 99999 := by
  show gather_S100000x64_S1700000x1_S1700000x64_1_0_n_n_0_1_164.start j idx 0
      + gather_S100000x64_S1700000x1_S1700000x64_1_0_n_n_0_1_164.batchCoord j 0
      + gather_S100000x64_S1700000x1_S1700000x64_1_0_n_n_0_1_164.offCoord j 0 = _
  rw [GatherDims.batchCoord_eq_zero _ j 0 (by decide), GatherDims.offCoord_eq_zero _ j 0 (by decide)]
  unfold GatherDims.start
  rw [dif_pos (show (0 : Fin S100000x64.rank) ∈ gather_S100000x64_S1700000x1_S1700000x64_1_0_n_n_0_1_164.startIndexMap by decide), g2_siIdx]
  rfl

/-- The rank-1 take of a length-100000 vector at the edge of entry j. -/
theorem g1_take {w : Nat} (x : S100000.Idx → EReal) (idx : IVec S1700000x1 w) (j : S1700000x64.Idx) :
    Host.gather gather_S100000_S1700000x1_S1700000_n_0_n_n_0_1_1 x idx (edgeI j)
      = x (Shape.Idx.ofFin ⟨min (idx (edgeIx j)).toInt.toNat (100000 - 1), by omega⟩) :=
  gather_take gather_S100000_S1700000x1_S1700000_n_0_n_n_0_1_1 rfl rfl rfl rfl x idx (edgeOf j) (by decide)

/-! ## The sum law on the extended reals -/

/-- A sum of extended reals times a non-negative real is the sum of the products. -/
theorem sum_mul_of_nonneg_real {ι : Type} (S : Finset ι) (t : ι → EReal) {c : EReal} (h0 : 0 ≤ c) (ht : c ≠ ⊤) :
    (∑ j ∈ S, t j) * c = ∑ j ∈ S, t j * c := by
  classical
  induction S using Finset.induction_on with
  | empty => simp
  | insert a s ha ih =>
    rw [Finset.sum_insert ha, Finset.sum_insert ha, EReal.right_distrib_of_nonneg_of_ne_top h0 ht, ih]

/-! ## What an update entry that lands at i reads -/

/-- The normalised target word of an entry landing at i is still the row of i: it is not negative. -/
theorem v27_of_landing (x1 : (⟨S2x1600000, .i32⟩ : BufTy).Contents (Elt Ideal)) (j : S1700000x64.Idx) (i : S100000x64.Idx)
    (h : scatter_S100000x64_S1700000x1_S1700000x64_1_0_0_1.resultIdx? j (val_main_v42 (F := Ideal) x1) = some i) :
    (val_main_v27 (F := Ideal) x1 (edgeIx j)).toInt = ((i 0).val : Int) := by
  have hw := resultIdx_some j _ i h
  rw [val_main_v42_apply, idx42_edge] at hw
  rw [val_main_v27_apply, idx27_edge, val_main_v26_apply, val_main_v23_apply, val_main_v22_apply, val_main_c_4_apply]
  generalize val_main_v6 (F := Ideal) x1 (edgeI j) = wd at hw ⊢
  have hs : IntOp.cmpi .slt wd 0#32 = 0#1 := by
    show BitVec.ofBool (BitVec.slt wd 0#32) = 0#1
    have hz : (0#32 : BitVec 32).toInt = 0 := by decide
    have hf : BitVec.slt wd 0#32 = false := by
      unfold BitVec.slt
      rw [hw, hz]
      exact decide_eq_false (by omega)
    rw [hf]; rfl
  rw [hs]
  unfold Scalar.select
  rw [if_neg (by decide)]
  exact hw

/-- So the take of the scale vector by the normalised target reads the scale of the row of i. -/
theorem v28_of_landing (x1 : (⟨S2x1600000, .i32⟩ : BufTy).Contents (Elt Ideal)) (j : S1700000x64.Idx) (i : S100000x64.Idx)
    (h : scatter_S100000x64_S1700000x1_S1700000x64_1_0_0_1.resultIdx? j (val_main_v42 (F := Ideal) x1) = some i) :
    val_main_v28 (F := Ideal) x1 (edgeI j) = val_main_v14 (F := Ideal) x1 (rowOf i) := by
  unfold val_main_v28
  refine (g1_take _ _ j).trans ?_
  congr 1
  funext a
  match a with
  | ⟨0, _⟩ =>
    apply Fin.ext
    show min (val_main_v27 (F := Ideal) x1 (edgeIx j)).toInt.toNat (100000 - 1) = (i 0).val
    rw [v27_of_landing x1 j i h]
    have hi : (i 0).val < 100000 := (i 0).isLt
    omega

/-- The two normalisations of the source words are one function. -/
theorem v20_eq_v36 (x1 : (⟨S2x1600000, .i32⟩ : BufTy).Contents (Elt Ideal)) :
    val_main_v20 (F := Ideal) x1 = val_main_v36 (F := Ideal) x1 := rfl

/-- The row the rank-2 gather reads is the row the rank-1 take of the scale vector reads. -/
theorem src_row (x1 : (⟨S2x1600000, .i32⟩ : BufTy).Contents (Elt Ideal)) (j : S1700000x64.Idx) :
    val_main_v14 (F := Ideal) x1
        (rowOf (gather_S100000x64_S1700000x1_S1700000x64_1_0_n_n_0_1_164.operandIdx j (val_main_v36 (F := Ideal) x1)))
      = val_main_v21 (F := Ideal) x1 (edgeI j) := by
  unfold val_main_v21
  refine Eq.trans ?_ (g1_take _ _ j).symm
  congr 1
  funext a
  match a with
  | ⟨0, _⟩ =>
    apply Fin.ext
    show ((gather_S100000x64_S1700000x1_S1700000x64_1_0_n_n_0_1_164.operandIdx j (val_main_v36 (F := Ideal) x1)) 0).val
      = min (val_main_v20 (F := Ideal) x1 (edgeIx j)).toInt.toNat (100000 - 1)
    rw [g2_row, v20_eq_v36]

/-! ## Term by term, then the whole sum -/

/-- A message landing at i is the gathered scaled row times the scale of the row of i. -/
theorem term_eq (x0 : (⟨S100000x256, .f32⟩ : BufTy).Contents (Elt Ideal)) (x1 : (⟨S2x1600000, .i32⟩ : BufTy).Contents (Elt Ideal))
    (x2 : (⟨S256x64, .f32⟩ : BufTy).Contents (Elt Ideal)) (j : S1700000x64.Idx) (i : S100000x64.Idx)
    (h : scatter_S100000x64_S1700000x1_S1700000x64_1_0_0_1.resultIdx? j (val_main_v42 (F := Ideal) x1) = some i) :
    val_main_v40 (F := Ideal) x0 x1 x2 j
      = Host.gather gather_S100000x64_S1700000x1_S1700000x64_1_0_n_n_0_1_164 (hsR x0 x1 x2) (val_main_v36 (F := Ideal) x1) j
          * val_main_v14 (F := Ideal) x1 (rowOf i) := by
  rw [val_main_v40_apply, val_main_v39_apply, val_main_v38_apply, idx38_39_edge, val_main_v29_apply, v28_of_landing x1 j i h]
  unfold val_main_v37 Host.gather hsR
  rw [src_row]
  generalize val_main_v30 (F := Ideal) x0 x2 _ = a
  generalize val_main_v21 (F := Ideal) x1 _ = b
  generalize val_main_v14 (F := Ideal) x1 _ = c
  show (a : EReal) * (b * c) = a * b * c
  exact (mul_assoc a b c).symm

/-- The bias broadcast reads the bias at the column. -/
theorem idx44_45 (i : S100000x64.Idx) : idx_main_v44 (idx_main_v45 i) = colOf i :=
  funext fun a => Fin.ext (by match a with | ⟨0, _⟩ => rfl)

/-- The accumulating scatter at the extended reals, read at an index: the operand's element plus the sum of the updates
    that land there. -/
theorem scatterAdd_apply {s si su : Shape} {w : Nat} (d : ScatterDims s si su) (x : s.Idx → EReal) (idx : IVec si w)
    (upd : su.Idx → EReal) (i : s.Idx) :
    Host.scatterAdd (F := Ideal) (φ := .f32) d x idx upd i
      = x i + ∑ j ∈ Finset.univ.filter (fun j => d.resultIdx? j idx = some i), upd j := rfl

/-- The zeros the scatter accumulates onto. -/
theorem v41_zero (i : S100000x64.Idx) : val_main_v41 (F := Ideal) i = (0 : EReal) := by
  rw [val_main_v41_apply, val_main_cst_8_apply]
  exact Ideal.ofBits_zero_f32

/-- The reference's result is the kernel's arrangement. -/
theorem ref_eq_kernelForm (x0 : (⟨S100000x256, .f32⟩ : BufTy).Contents (Elt Ideal)) (x1 : (⟨S2x1600000, .i32⟩ : BufTy).Contents (Elt Ideal))
    (x2 : (⟨S256x64, .f32⟩ : BufTy).Contents (Elt Ideal)) (x3 : (⟨S64, .f32⟩ : BufTy).Contents (Elt Ideal)) :
    val_main_v46 (F := Ideal) x0 x1 x2 x3 = kernelForm x0 x1 x2 x3 := by
  funext i
  obtain ⟨r, hr0, hr⟩ := dinv_real x1 (rowOf i)
  have hc0 : (0 : EReal) ≤ val_main_v14 (F := Ideal) x1 (rowOf i) := by rw [hr]; exact EReal.coe_nonneg.mpr hr0
  have hct : val_main_v14 (F := Ideal) x1 (rowOf i) ≠ ⊤ := by rw [hr]; exact EReal.coe_ne_top r
  rw [val_main_v46_apply, val_main_v45_apply, val_main_v44_apply, idx44_45]
  unfold kernelForm val_main_v43
  rw [scatterAdd_apply, scatterAdd_apply, v41_zero]
  rw [Ideal.addf_def, zero_add, zero_add, sum_mul_of_nonneg_real _ _ hc0 hct]
  refine congrArg (fun t : EReal => t + x3 (colOf i)) ?_
  exact Finset.sum_congr rfl fun j hj => term_eq x0 x1 x2 j i (Finset.mem_filter.mp hj).2

end Cert.ReferenceIdeal.RefValue

end
-- ==== Proof.lean ====
/-
  The certificate of a graph convolution  out = D^-1/2 (A + I) D^-1/2 (X W) + b  on 100000 nodes and 1.7 million edges
  (self loops included).

  The kernel program computes the row scale dinv = deg^-1/2 on the host, then a pipelined region that writes
  hs[r, ·] = (x·W)[r, ·] · dinv[r], a host gather of the rows hs[src] and scatter-add by dst, and a second pipelined region
  that writes out[r, ·] = agg[r, ·] · dinv[r] + b. The reference scales each gathered row of x·W by dinv[src] · dinv[dst]
  before the scatter-add. On the extended reals the two agree entry by entry: a kept edge's target IS the row it is added
  into, multiplication is associative, and a sum times a NON-NEGATIVE REAL is the sum of the products — the scale is one,
  being zero or the reciprocal square root of a positive count. No finiteness of x or W is used.

  The frames: the reference is a host program and its run is read back operation by operation; the idealized kernel's
  two regions carry exact proof data (the last row block is cut at the arrays' end, and at the ideal instance a row of
  the matrix product depends on its own row of x only, so the rows inside the array are named whatever the staging
  buffer holds past them); the word-level kernel's regions carry proof data that say nothing of the staging buffers,
  and the second region is entered from whatever the first left.
-/
import proofs.«161486_j65274912964781_1_alg».proof.Defs
import proofs.«161486_j65274912964781_1_alg».proof.Proof.Gen.Kernel
import proofs.«161486_j65274912964781_1_alg».proof.Proof.Gen.KernelIdeal
import proofs.«161486_j65274912964781_1_alg».proof.Proof.Gen.ReferenceIdeal
import proofs.«161486_j65274912964781_1_alg».proof.Proof.Gen.Pre_finite_inputs
import proofs.«161486_j65274912964781_1_alg».proof.Proof.BitsFrame
import proofs.«161486_j65274912964781_1_alg».proof.Proof.IdealRun
import proofs.«161486_j65274912964781_1_alg».proof.Proof.IdealValue
import proofs.«161486_j65274912964781_1_alg».proof.Proof.RefRun
import proofs.«161486_j65274912964781_1_alg».proof.Proof.RefRead
import proofs.«161486_j65274912964781_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel (hKernel := Cert.Kernel.Gen.facts) (hPre_finite_inputs := Cert.Pre_finite_inputs.Gen.facts) :=
  fun m ρ _ => Cert.Kernel.Hand.frameB (F := Bits) m ρ

/-- The idealized kernel runs and keeps its arguments: its run, read at the four arguments. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono
    (fun r h c =>
      ⟨(h c _ (Cert.KernelIdeal.Hand.mem_uc Cert.KernelIdeal.main_arg0 (by decide))).trans (Cert.KernelIdeal.Hand.W6_main_arg0 m c),
       (h c _ (Cert.KernelIdeal.Hand.mem_uc Cert.KernelIdeal.main_arg1 (by decide))).trans (Cert.KernelIdeal.Hand.W6_main_arg1 m c),
       (h c _ (Cert.KernelIdeal.Hand.mem_uc Cert.KernelIdeal.main_arg2 (by decide))).trans (Cert.KernelIdeal.Hand.W6_main_arg2 m c),
       (h c _ (Cert.KernelIdeal.Hand.mem_uc Cert.KernelIdeal.main_arg3 (by decide))).trans (Cert.KernelIdeal.Hand.W6_main_arg3 m c)⟩)
    (Cert.KernelIdeal.Hand.run_main m ρ)

/-- The reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the kernel's arrangement of the convolution, applied to arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.RefValue.kernelForm
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c =>
        ⟨(h c _ (Cert.KernelIdeal.Hand.mem_uc Cert.KernelIdeal.main_v28 (by decide))).trans (Cert.KernelIdeal.Hand.value28 m c),
         (h c _ (Cert.KernelIdeal.Hand.mem_uc Cert.KernelIdeal.main_arg0 (by decide))).trans (Cert.KernelIdeal.Hand.W6_main_arg0 m c),
         (h c _ (Cert.KernelIdeal.Hand.mem_uc Cert.KernelIdeal.main_arg1 (by decide))).trans (Cert.KernelIdeal.Hand.W6_main_arg1 m c),
         (h c _ (Cert.KernelIdeal.Hand.mem_uc Cert.KernelIdeal.main_arg2 (by decide))).trans (Cert.KernelIdeal.Hand.W6_main_arg2 m c),
         (h c _ (Cert.KernelIdeal.Hand.mem_uc Cert.KernelIdeal.main_arg3 (by decide))).trans (Cert.KernelIdeal.Hand.W6_main_arg3 m c)⟩)
      (Cert.KernelIdeal.Hand.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v46_eq, Cert.ReferenceIdeal.RefValue.ref_eq_kernelForm,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
